-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x288 : Shape := ⟨2, ![100000, 288]⟩
abbrev S250000x256 : Shape := ⟨2, ![250000, 256]⟩
abbrev S201x32 : Shape := ⟨2, ![201, 32]⟩
abbrev S576x256 : Shape := ⟨2, ![576, 256]⟩
abbrev S250000 : Shape := ⟨1, ![250000]⟩
abbrev S50000 : Shape := ⟨1, ![50000]⟩
abbrev S_ : Shape := ⟨0, ![]⟩

class Facts : Prop where
  bcast_S_S100000x288 : S_.BroadcastsInDim S100000x288 (![] : Fin 0 → Fin S100000x288.rank)
  reducesTo_S100000x288_S_d0_1 : S100000x288.ReducesTo [0, 1] S_
  h_S_ : 0 < S_.numel
  bcast_S_S250000x256 : S_.BroadcastsInDim S250000x256 (![] : Fin 0 → Fin S250000x256.rank)
  reducesTo_S250000x256_S_d0_1 : S250000x256.ReducesTo [0, 1] S_
  bcast_S_S201x32 : S_.BroadcastsInDim S201x32 (![] : Fin 0 → Fin S201x32.rank)
  reducesTo_S201x32_S_d0_1 : S201x32.ReducesTo [0, 1] S_
  bcast_S_S576x256 : S_.BroadcastsInDim S576x256 (![] : Fin 0 → Fin S576x256.rank)
  reducesTo_S576x256_S_d0_1 : S576x256.ReducesTo [0, 1] S_
  bcast_S_S250000 : S_.BroadcastsInDim S250000 (![] : Fin 0 → Fin S250000.rank)
  reducesTo_S250000_S_d0 : S250000.ReducesTo [0] S_

variable [Facts]

def fn_part2 {F : FTy → Type} [FloatOps F] (main_arg10 : IVec S250000 32) (main_v30 : IVec S_ 1) (main_v32 : IVec S250000 1) (main_c_12 : IVec S_ 32) : IVec S_ 1 :=
  let main_v33 : IVec S250000 32 := broadcastInDim S250000 ![] bcast_S_S250000 main_c_12
  let main_v34 : IVec S250000 1 := cmpi .sle main_arg10 main_v33
  let main_v35 : IVec S250000 1 := andi main_v32 main_v34
  let main_c_13 : IVec S_ 1 := constantI S_ 1 1#1
  let main_v36 : IVec S_ 1 := (fun x v => Host.reduce IntOp.andi x v reducesTo_S250000_S_d0 h_S_) main_v35 main_c_13
  let main_v37 : IVec S_ 1 := andi main_v30 main_v36
  main_v37

def fn_part1 {F : FTy → Type} [FloatOps F] (main_arg4 : FVec F S576x256 .f32) (main_arg5 : IVec S250000 32) (main_arg10 : IVec S250000 32) (main_v13 : IVec S_ 1) (main_v16 : IVec S576x256 1) : IVec S_ 1 :=
  let main_c_5 : IVec S_ 1 := constantI S_ 1 1#1
  let main_v17 : IVec S_ 1 := (fun x v => Host.reduce IntOp.andi x v reducesTo_S576x256_S_d0_1 h_S_) main_v16 main_c_5
  let main_v18 : IVec S_ 1 := andi main_v13 main_v17
  let main_v19 : FVec F S576x256 .f32 := Host.absf main_arg4
  let main_cst_6 : FVec F S_ .f32 := constant S_ .f32 0x7F800000#32
  let main_v20 : FVec F S576x256 .f32 := broadcastInDim S576x256 ![] bcast_S_S576x256 main_cst_6
  let main_v21 : IVec S576x256 1 := cmpf .olt main_v19 main_v20
  let main_c_7 : IVec S_ 1 := constantI S_ 1 1#1
  let main_v22 : IVec S_ 1 := (fun x v => Host.reduce IntOp.andi x v reducesTo_S576x256_S_d0_1 h_S_) main_v21 main_c_7
  let main_v23 : IVec S_ 1 := andi main_v18 main_v22
  let main_c_8 : IVec S_ 32 := constantI S_ 32 0#32
  let main_v24 : IVec S250000 32 := broadcastInDim S250000 ![] bcast_S_S250000 main_c_8
  let main_v25 : IVec S250000 1 := cmpi .sge main_arg5 main_v24
  let main_c_9 : IVec S_ 32 := constantI S_ 32 201#32
  let main_v26 : IVec S250000 32 := broadcastInDim S250000 ![] bcast_S_S250000 main_c_9
  let main_v27 : IVec S250000 1 := cmpi .slt main_arg5 main_v26
  let main_v28 : IVec S250000 1 := andi main_v25 main_v27
  let main_c_10 : IVec S_ 1 := constantI S_ 1 1#1
  let main_v29 : IVec S_ 1 := (fun x v => Host.reduce IntOp.andi x v reducesTo_S250000_S_d0 h_S_) main_v28 main_c_10
  let main_v30 : IVec S_ 1 := andi main_v23 main_v29
  let main_c_11 : IVec S_ 32 := constantI S_ 32 0#32
  let main_v31 : IVec S250000 32 := broadcastInDim S250000 ![] bcast_S_S250000 main_c_11
  let main_v32 : IVec S250000 1 := cmpi .sge main_arg10 main_v31
  let main_c_12 : IVec S_ 32 := constantI S_ 32 1#32
  fn_part2 (F := F) main_arg10 main_v30 main_v32 main_c_12

def fn {F : FTy → Type} [FloatOps F] (main_arg0 : FVec F S100000x288 .f32) (main_arg1 : FVec F S250000x256 .f32) (main_arg2 : FVec F S201x32 .f32) (main_arg3 : FVec F S576x256 .f32) (main_arg4 : FVec F S576x256 .f32) (main_arg5 : IVec S250000 32) (main_arg6 : IVec S50000 32) (main_arg7 : IVec S250000 32) (main_arg8 : IVec S250000 32) (main_arg9 : IVec S250000 32) (main_arg10 : IVec S250000 32) : IVec S_ 1 :=
  let main_v0 : FVec F S100000x288 .f32 := Host.absf main_arg0
  let main_cst : FVec F S_ .f32 := constant S_ .f32 0x7F800000#32
  let main_v1 : FVec F S100000x288 .f32 := broadcastInDim S100000x288 ![] bcast_S_S100000x288 main_cst
  let main_v2 : IVec S100000x288 1 := cmpf .olt main_v0 main_v1
  let main_c : IVec S_ 1 := constantI S_ 1 1#1
  let main_v3 : IVec S_ 1 := (fun x v => Host.reduce IntOp.andi x v reducesTo_S100000x288_S_d0_1 h_S_) main_v2 main_c
  let main_v4 : FVec F S250000x256 .f32 := Host.absf main_arg1
  let main_cst_0 : FVec F S_ .f32 := constant S_ .f32 0x7F800000#32
  let main_v5 : FVec F S250000x256 .f32 := broadcastInDim S250000x256 ![] bcast_S_S250000x256 main_cst_0
  let main_v6 : IVec S250000x256 1 := cmpf .olt main_v4 main_v5
  let main_c_1 : IVec S_ 1 := constantI S_ 1 1#1
  let main_v7 : IVec S_ 1 := (fun x v => Host.reduce IntOp.andi x v reducesTo_S250000x256_S_d0_1 h_S_) main_v6 main_c_1
  let main_v8 : IVec S_ 1 := andi main_v3 main_v7
  let main_v9 : FVec F S201x32 .f32 := Host.absf main_arg2
  let main_cst_2 : FVec F S_ .f32 := constant S_ .f32 0x7F800000#32
  let main_v10 : FVec F S201x32 .f32 := broadcastInDim S201x32 ![] bcast_S_S201x32 main_cst_2
  let main_v11 : IVec S201x32 1 := cmpf .olt main_v9 main_v10
  let main_c_3 : IVec S_ 1 := constantI S_ 1 1#1
  let main_v12 : IVec S_ 1 := (fun x v => Host.reduce IntOp.andi x v reducesTo_S201x32_S_d0_1 h_S_) main_v11 main_c_3
  let main_v13 : IVec S_ 1 := andi main_v8 main_v12
  let main_v14 : FVec F S576x256 .f32 := Host.absf main_arg3
  let main_cst_4 : FVec F S_ .f32 := constant S_ .f32 0x7F800000#32
  let main_v15 : FVec F S576x256 .f32 := broadcastInDim S576x256 ![] bcast_S_S576x256 main_cst_4
  let main_v16 : IVec S576x256 1 := cmpf .olt main_v14 main_v15
  fn_part1 (F := F) main_arg4 main_arg5 main_arg10 main_v13 main_v16
-- ==== Kernel.lean ====
abbrev S100000x288 : Shape := ⟨2, ![100000, 288]⟩
abbrev S250000x256 : Shape := ⟨2, ![250000, 256]⟩
abbrev S201x32 : Shape := ⟨2, ![201, 32]⟩
abbrev S576x256 : Shape := ⟨2, ![576, 256]⟩
abbrev S250000 : Shape := ⟨1, ![250000]⟩
abbrev S50000 : Shape := ⟨1, ![50000]⟩
abbrev S_ : Shape := ⟨0, ![]⟩
abbrev S250000x1 : Shape := ⟨2, ![250000, 1]⟩
abbrev S250000x288 : Shape := ⟨2, ![250000, 288]⟩
abbrev S256x32 : Shape := ⟨2, ![256, 32]⟩
abbrev S1 : Shape := ⟨1, ![1]⟩
abbrev S250000x2 : Shape := ⟨2, ![250000, 2]⟩
abbrev S2000x256 : Shape := ⟨2, ![2000, 256]⟩
abbrev S2000x288 : Shape := ⟨2, ![2000, 288]⟩
abbrev S2000x2 : Shape := ⟨2, ![2000, 2]⟩
abbrev S2000x1 : Shape := ⟨2, ![2000, 1]⟩
abbrev S2000x32 : Shape := ⟨2, ![2000, 32]⟩
abbrev S256x256 : Shape := ⟨2, ![256, 256]⟩
abbrev S32x256 : Shape := ⟨2, ![32, 256]⟩
abbrev S288x256 : Shape := ⟨2, ![288, 256]⟩
abbrev S50000x256 : Shape := ⟨2, ![50000, 256]⟩
abbrev S50000x1 : Shape := ⟨2, ![50000, 1]⟩
abbrev S50000x288 : Shape := ⟨2, ![50000, 288]⟩
abbrev S50000x544 : Shape := ⟨2, ![50000, 544]⟩

abbrev nBuf : Space → Nat
  | .hbm => 66
  | .vmem => 11
  | .smem => 0
  | _ => 0

abbrev bufTy : (tb : Table) → Fin (tcTables nBuf tb) → BufTy
  | .hbm, ⟨0, _⟩ => ⟨S100000x288, .f32⟩
  | .hbm, ⟨1, _⟩ => ⟨S250000x256, .f32⟩
  | .hbm, ⟨2, _⟩ => ⟨S201x32, .f32⟩
  | .hbm, ⟨3, _⟩ => ⟨S576x256, .f32⟩
  | .hbm, ⟨4, _⟩ => ⟨S576x256, .f32⟩
  | .hbm, ⟨5, _⟩ => ⟨S250000, .i32⟩
  | .hbm, ⟨6, _⟩ => ⟨S50000, .i32⟩
  | .hbm, ⟨7, _⟩ => ⟨S250000, .i32⟩
  | .hbm, ⟨8, _⟩ => ⟨S250000, .i32⟩
  | .hbm, ⟨9, _⟩ => ⟨S250000, .i32⟩
  | .hbm, ⟨10, _⟩ => ⟨S250000, .i32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x256, .f32⟩
  | .hbm, ⟨20, _⟩ => ⟨S250000x256, .bf16⟩
  | .hbm, ⟨21, _⟩ => ⟨S_, .i32⟩
  | .hbm, ⟨22, _⟩ => ⟨S250000, .i32⟩
  | .hbm, ⟨23, _⟩ => ⟨S250000, .i1⟩
  | .hbm, ⟨24, _⟩ => ⟨S_, .i32⟩
  | .hbm, ⟨25, _⟩ => ⟨S250000, .i32⟩
  | .hbm, ⟨26, _⟩ => ⟨S250000, .i32⟩
  | .hbm, ⟨27, _⟩ => ⟨S250000, .i32⟩
  | .hbm, ⟨28, _⟩ => ⟨S250000x1, .i32⟩
  | .hbm, ⟨29, _⟩ => ⟨S250000x288, .f32⟩
  | .hbm, ⟨30, _⟩ => ⟨S250000x288, .bf16⟩
  | .hbm, ⟨31, _⟩ => ⟨S_, .i32⟩
  | .hbm, ⟨32, _⟩ => ⟨S250000, .i32⟩
  | .hbm, ⟨33, _⟩ => ⟨S250000, .i1⟩
  | .hbm, ⟨34, _⟩ => ⟨S_, .i32⟩
  | .hbm, ⟨35, _⟩ => ⟨S250000, .i32⟩
  | .hbm, ⟨36, _⟩ => ⟨S250000, .i32⟩
  | .hbm, ⟨37, _⟩ => ⟨S250000, .i32⟩
  | .hbm, ⟨38, _⟩ => ⟨S250000x1, .i32⟩
  | .hbm, ⟨39, _⟩ => ⟨S250000, .i32⟩
  | .hbm, ⟨40, _⟩ => ⟨S_, .f32⟩
  | .hbm, ⟨41, _⟩ => ⟨S256x32, .f32⟩
  | .hbm, ⟨42, _⟩ => ⟨S_, .i32⟩
  | .hbm, ⟨43, _⟩ => ⟨S1, .i32⟩
  | .hbm, ⟨44, _⟩ => ⟨S256x32, .f32⟩
  | .hbm, ⟨45, _⟩ => ⟨S256x32, .bf16⟩
  | .hbm, ⟨46, _⟩ => ⟨S250000x1, .i32⟩
  | .hbm, ⟨47, _⟩ => ⟨S250000x1, .i32⟩
  | .hbm, ⟨48, _⟩ => ⟨S250000x2, .i32⟩
  | .hbm, ⟨49, _⟩ => ⟨S576x256, .bf16⟩
  | .hbm, ⟨50, _⟩ => ⟨S576x256, .bf16⟩
  | .hbm, ⟨51, _⟩ => ⟨S250000x256, .f32⟩
  | .hbm, ⟨52, _⟩ => ⟨S_, .f32⟩
  | .hbm, ⟨53, _⟩ => ⟨S50000x256, .f32⟩
  | .hbm, ⟨54, _⟩ => ⟨S250000x1, .i32⟩
  | .hbm, ⟨55, _⟩ => ⟨S50000x256, .f32⟩
  | .hbm, ⟨56, _⟩ => ⟨S_, .i32⟩
  | .hbm, ⟨57, _⟩ => ⟨S50000, .i32⟩
  | .hbm, ⟨58, _⟩ => ⟨S50000, .i1⟩
  | .hbm, ⟨59, _⟩ => ⟨S_, .i32⟩
  | .hbm, ⟨60, _⟩ => ⟨S50000, .i32⟩
  | .hbm, ⟨61, _⟩ => ⟨S50000, .i32⟩
  | .hbm, ⟨62, _⟩ => ⟨S50000, .i32⟩
  | .hbm, ⟨63, _⟩ => ⟨S50000x1, .i32⟩
  | .hbm, ⟨64, _⟩ => ⟨S50000x288, .f32⟩
  | .hbm, ⟨65, _⟩ => ⟨S50000x544, .f32⟩
  | .local _ .vmem, ⟨0, _⟩ => ⟨S2000x256, .bf16⟩
  | .local _ .vmem, ⟨1, _⟩ => ⟨S2000x256, .bf16⟩
  | .local _ .vmem, ⟨2, _⟩ => ⟨S2000x288, .bf16⟩
  | .local _ .vmem, ⟨3, _⟩ => ⟨S2000x288, .bf16⟩
  | .local _ .vmem, ⟨4, _⟩ => ⟨S2000x2, .i32⟩
  | .local _ .vmem, ⟨5, _⟩ => ⟨S2000x2, .i32⟩
  | .local _ .vmem, ⟨6, _⟩ => ⟨S576x256, .bf16⟩
  | .local _ .vmem, ⟨7, _⟩ => ⟨S576x256, .bf16⟩
  | .local _ .vmem, ⟨8, _⟩ => ⟨S256x32, .bf16⟩
  | .local _ .vmem, ⟨9, _⟩ => ⟨S2000x256, .f32⟩
  | .local _ .vmem, ⟨10, _⟩ => ⟨S2000x256, .f32⟩
  | _, _ => ⟨S100000x288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x288 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x2 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S576x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S576x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  bitsLt_bf16_f32 : FTy.bits .bf16 < FTy.bits .f32
  bcast_S_S256x32 : S_.BroadcastsInDim S256x32 (![] : Fin 0 → Fin S256x32.rank)
  bcast_S_S1 : S_.BroadcastsInDim S1 (![] : Fin 0 → Fin S1.rank)
  concatenates_S250000x1_S250000x1_S250000x2_d1 : Shape.Concatenates [S250000x1, S250000x1] S250000x2 1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x288_S2000x288_0_0 : ∀ a, (![0, 0] : Fin 2 → Nat) a + S2000x288.size a ≤ S2000x288.size a
  h_S2000x288 : 0 < S2000x288.numel
  shapeCasts_S2000x288_S2000x288 : S2000x288.ShapeCasts S2000x288
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  slices_S2000x2_o0_1_S2000x1 : S2000x2.Slices ![0, 1] S2000x1
  iota_S2000x256_d1_w32 : S2000x256.Iotas .tc 32 [1]
  broadcasts_S2000x1_S2000x256 : S2000x1.Broadcasts S2000x256
  natLt_1_32 : 1 < 32
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S576x256_S576x256_0_0 : ∀ a, (![0, 0] : Fin 2 → Nat) a + S576x256.size a ≤ S576x256.size a
  h_S576x256 : 0 < S576x256.numel
  shapeCasts_S576x256_S576x256 : S576x256.ShapeCasts S576x256
  slices_S576x256_o0_0_S256x256 : S576x256.Slices ![0, 0] S256x256
  slices_S576x256_o256_0_S32x256 : S576x256.Slices ![256, 0] S32x256
  slices_S576x256_o288_0_S288x256 : S576x256.Slices ![288, 0] S288x256
  broadcasts_S2000x1_S2000x32 : S2000x1.Broadcasts S2000x32
  broadcasts_S2000x1_S2000x288 : S2000x1.Broadcasts S2000x288
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x288_S50000x256_S50000x544_d1 : Shape.Concatenates [S50000x288, S50000x256] S50000x544 1
  gather_S250000x256_S250000x1_S250000x256_1_0_n_n_0_1_1256_wf : GatherDims.WF S250000x256 S250000x1 S250000x256 [1] [0] [] [0] [] 1 ![1, 256]
  gather_S100000x288_S250000x1_S250000x288_1_0_n_n_0_1_1288_wf : GatherDims.WF S100000x288 S250000x1 S250000x288 [1] [0] [] [0] [] 1 ![1, 288]
  gather_S250000_S250000x1_S250000_n_0_n_n_0_1_1_wf : GatherDims.WF S250000 S250000x1 S250000 [] [0] [] [0] [] 1 ![1]
  scatter_S256x32_S1_S201x32_01_n_0_0_wf : ScatterDims.WF S256x32 S1 S201x32 [0, 1] [] [0] 0
  dot_S2000x256_S256x32_S2000x32_1_0_0_1_n_n_wf : DotDims.WF S2000x256 S256x32 S2000x32 [1] [0] [0] [1] [] []
  dot_S2000x256_S256x256_S2000x256_1_0_0_1_n_n_wf : DotDims.WF S2000x256 S256x256 S2000x256 [1] [0] [0] [1] [] []
  dot_S2000x32_S32x256_S2000x256_1_0_0_1_n_n_wf : DotDims.WF S2000x32 S32x256 S2000x256 [1] [0] [0] [1] [] []
  dot_S2000x288_S288x256_S2000x256_1_0_0_1_n_n_wf : DotDims.WF S2000x288 S288x256 S2000x256 [1] [0] [0] [1] [] []
  scatter_S50000x256_S250000x1_S250000x256_1_0_0_1_wf : ScatterDims.WF S50000x256 S250000x1 S250000x256 [1] [0] [0] 1
  gather_S100000x288_S50000x1_S50000x288_1_0_n_n_0_1_1288_wf : GatherDims.WF S100000x288 S50000x1 S50000x288 [1] [0] [] [0] [] 1 ![1, 288]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S250000x256.size a
  hwx0_0 : ∀ i : grid0.Coords, EltTy.bits .bf16 = 32 ∨ (Rect.block (s := S250000x256) S2000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x288.size a ≤ S250000x288.size a
  hwx0_1 : ∀ i : grid0.Coords, EltTy.bits .bf16 = 32 ∨ (Rect.block (s := S250000x288) S2000x288.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S250000x2.size a
  hwx0_2 : ∀ i : grid0.Coords, EltTy.bits .i32 = 32 ∨ (Rect.block (s := S250000x2) S2000x2.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S576x256.size a ≤ S576x256.size a
  hwx0_3 : ∀ i : grid0.Coords, EltTy.bits .bf16 = 32 ∨ (Rect.block (s := S576x256) S576x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S576x256.size a ≤ S576x256.size a
  hwx0_4 : ∀ i : grid0.Coords, EltTy.bits .bf16 = 32 ∨ (Rect.block (s := S576x256) S576x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x32.size a ≤ S256x32.size a
  hwx0_5 : ∀ i : grid0.Coords, EltTy.bits .bf16 = 32 ∨ (Rect.block (s := S256x32) S256x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S250000x256.size a
  hwx0_6 : ∀ i : grid0.Coords, EltTy.bits .f32 = 32 ∨ (Rect.block (s := S250000x256) S2000x256.size (cc0_transform_6 i) (hinb0_6 i)).WholeWords (EltTy.packing .f32)

variable [Facts₀]

def gather_S250000x256_S250000x1_S250000x256_1_0_n_n_0_1_1256 : GatherDims S250000x256 S250000x1 S250000x256 where
  offsetDims := [1]
  collapsedSliceDims := [0]
  operandBatchingDims := []
  startIndicesBatchingDims := []
  startIndexMap := [0]
  indexVectorDim := 1
  sliceSizes := ![1, 256]
  wf := gather_S250000x256_S250000x1_S250000x256_1_0_n_n_0_1_1256_wf
def gather_S100000x288_S250000x1_S250000x288_1_0_n_n_0_1_1288 : GatherDims S100000x288 S250000x1 S250000x288 where
  offsetDims := [1]
  collapsedSliceDims := [0]
  operandBatchingDims := []
  startIndicesBatchingDims := []
  startIndexMap := [0]
  indexVectorDim := 1
  sliceSizes := ![1, 288]
  wf := gather_S100000x288_S250000x1_S250000x288_1_0_n_n_0_1_1288_wf
def gather_S250000_S250000x1_S250000_n_0_n_n_0_1_1 : GatherDims S250000 S250000x1 S250000 where
  offsetDims := []
  collapsedSliceDims := [0]
  operandBatchingDims := []
  startIndicesBatchingDims := []
  startIndexMap := [0]
  indexVectorDim := 1
  sliceSizes := ![1]
  wf := gather_S250000_S250000x1_S250000_n_0_n_n_0_1_1_wf
def scatter_S256x32_S1_S201x32_01_n_0_0 : ScatterDims S256x32 S1 S201x32 where
  updateWindowDims := [0, 1]
  insertedWindowDims := []
  scatterDimsToOperandDims := [0]
  indexVectorDim := 0
  wf := scatter_S256x32_S1_S201x32_01_n_0_0_wf
def dot_S2000x256_S256x32_S2000x32_1_0_0_1_n_n : DotDims S2000x256 S256x32 S2000x32 where
  lhsContracting := [1]
  rhsContracting := [0]
  lhsNonContracting := [0]
  rhsNonContracting := [1]
  lhsBatch := []
  rhsBatch := []
  wf := dot_S2000x256_S256x32_S2000x32_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x32_S32x256_S2000x256_1_0_0_1_n_n : DotDims S2000x32 S32x256 S2000x256 where
  lhsContracting := [1]
  rhsContracting := [0]
  lhsNonContracting := [0]
  rhsNonContracting := [1]
  lhsBatch := []
  rhsBatch := []
  wf := dot_S2000x32_S32x256_S2000x256_1_0_0_1_n_n_wf
def dot_S2000x288_S288x256_S2000x256_1_0_0_1_n_n : DotDims S2000x288 S288x256 S2000x256 where
  lhsContracting := [1]
  rhsContracting := [0]
  lhsNonContracting := [0]
  rhsNonContracting := [1]
  lhsBatch := []
  rhsBatch := []
  wf := dot_S2000x288_S288x256_S2000x256_1_0_0_1_n_n_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def gather_S100000x288_S50000x1_S50000x288_1_0_n_n_0_1_1288 : GatherDims S100000x288 S50000x1 S50000x288 where
  offsetDims := [1]
  collapsedSliceDims := [0]
  operandBatchingDims := []
  startIndicesBatchingDims := []
  startIndexMap := [0]
  indexVectorDim := 1
  sliceSizes := ![1, 288]
  wf := gather_S100000x288_S50000x1_S50000x288_1_0_n_n_0_1_1288_wf

abbrev win0_0 : Pipeline.Window sig grid0 :=
  Pipeline.Window.ofSpec (Memref.whole main_v7) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2000x288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S576x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S576x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S256x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v32) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x288 : Shape := ⟨2, ![100000, 288]⟩
abbrev S250000x256 : Shape := ⟨2, ![250000, 256]⟩
abbrev S201x32 : Shape := ⟨2, ![201, 32]⟩
abbrev S576x256 : Shape := ⟨2, ![576, 256]⟩
abbrev S250000 : Shape := ⟨1, ![250000]⟩
abbrev S50000 : Shape := ⟨1, ![50000]⟩
abbrev S_ : Shape := ⟨0, ![]⟩
abbrev S250000x1 : Shape := ⟨2, ![250000, 1]⟩
abbrev S250000x32 : Shape := ⟨2, ![250000, 32]⟩
abbrev S250000x288 : Shape := ⟨2, ![250000, 288]⟩
abbrev S250000x576 : Shape := ⟨2, ![250000, 576]⟩
abbrev S50000x256 : Shape := ⟨2, ![50000, 256]⟩
abbrev S50000x1 : Shape := ⟨2, ![50000, 1]⟩
abbrev S50000x288 : Shape := ⟨2, ![50000, 288]⟩
abbrev S50000x544 : Shape := ⟨2, ![50000, 544]⟩

abbrev nBuf : Space → Nat
  | .hbm => 74
  | .vmem => 0
  | .smem => 0
  | _ => 0

abbrev bufTy : (tb : Table) → Fin (tcTables nBuf tb) → BufTy
  | .hbm, ⟨0, _⟩ => ⟨S100000x288, .f32⟩
  | .hbm, ⟨1, _⟩ => ⟨S250000x256, .f32⟩
  | .hbm, ⟨2, _⟩ => ⟨S201x32, .f32⟩
  | .hbm, ⟨3, _⟩ => ⟨S576x256, .f32⟩
  | .hbm, ⟨4, _⟩ => ⟨S576x256, .f32⟩
  | .hbm, ⟨5, _⟩ => ⟨S250000, .i32⟩
  | .hbm, ⟨6, _⟩ => ⟨S50000, .i32⟩
  | .hbm, ⟨7, _⟩ => ⟨S250000, .i32⟩
  | .hbm, ⟨8, _⟩ => ⟨S250000, .i32⟩
  | .hbm, ⟨9, _⟩ => ⟨S250000, .i32⟩
  | .hbm, ⟨10, _⟩ => ⟨S250000, .i32⟩
  | .hbm, ⟨11, _⟩ => ⟨S_, .i32⟩
  | .hbm, ⟨12, _⟩ => ⟨S250000, .i32⟩
  | .hbm, ⟨13, _⟩ => ⟨S250000, .i1⟩
  | .hbm, ⟨14, _⟩ => ⟨S_, .i32⟩
  | .hbm, ⟨15, _⟩ => ⟨S250000, .i32⟩
  | .hbm, ⟨16, _⟩ => ⟨S250000, .i32⟩
  | .hbm, ⟨17, _⟩ => ⟨S250000, .i32⟩
  | .hbm, ⟨18, _⟩ => ⟨S250000x1, .i32⟩
  | .hbm, ⟨19, _⟩ => ⟨S250000x32, .f32⟩
  | .hbm, ⟨20, _⟩ => ⟨S_, .i32⟩
  | .hbm, ⟨21, _⟩ => ⟨S250000, .i32⟩
  | .hbm, ⟨22, _⟩ => ⟨S250000, .i1⟩
  | .hbm, ⟨23, _⟩ => ⟨S_, .i32⟩
  | .hbm, ⟨24, _⟩ => ⟨S250000, .i32⟩
  | .hbm, ⟨25, _⟩ => ⟨S250000, .i32⟩
  | .hbm, ⟨26, _⟩ => ⟨S250000, .i32⟩
  | .hbm, ⟨27, _⟩ => ⟨S250000x1, .i32⟩
  | .hbm, ⟨28, _⟩ => ⟨S250000x256, .f32⟩
  | .hbm, ⟨29, _⟩ => ⟨S_, .i32⟩
  | .hbm, ⟨30, _⟩ => ⟨S250000, .i32⟩
  | .hbm, ⟨31, _⟩ => ⟨S250000, .i1⟩
  | .hbm, ⟨32, _⟩ => ⟨S_, .i32⟩
  | .hbm, ⟨33, _⟩ => ⟨S250000, .i32⟩
  | .hbm, ⟨34, _⟩ => ⟨S250000, .i32⟩
  | .hbm, ⟨35, _⟩ => ⟨S250000, .i32⟩
  | .hbm, ⟨36, _⟩ => ⟨S250000x1, .i32⟩
  | .hbm, ⟨37, _⟩ => ⟨S250000x32, .f32⟩
  | .hbm, ⟨38, _⟩ => ⟨S_, .i32⟩
  | .hbm, ⟨39, _⟩ => ⟨S250000, .i32⟩
  | .hbm, ⟨40, _⟩ => ⟨S250000, .i1⟩
  | .hbm, ⟨41, _⟩ => ⟨S_, .i32⟩
  | .hbm, ⟨42, _⟩ => ⟨S250000, .i32⟩
  | .hbm, ⟨43, _⟩ => ⟨S250000, .i32⟩
  | .hbm, ⟨44, _⟩ => ⟨S250000, .i32⟩
  | .hbm, ⟨45, _⟩ => ⟨S250000x1, .i32⟩
  | .hbm, ⟨46, _⟩ => ⟨S250000x288, .f32⟩
  | .hbm, ⟨47, _⟩ => ⟨S250000x576, .f32⟩
  | .hbm, ⟨48, _⟩ => ⟨S250000, .f32⟩
  | .hbm, ⟨49, _⟩ => ⟨S250000x1, .f32⟩
  | .hbm, ⟨50, _⟩ => ⟨S250000x576, .f32⟩
  | .hbm, ⟨51, _⟩ => ⟨S250000x576, .f32⟩
  | .hbm, ⟨52, _⟩ => ⟨S250000x256, .f32⟩
  | .hbm, ⟨53, _⟩ => ⟨S_, .f32⟩
  | .hbm, ⟨54, _⟩ => ⟨S250000x1, .f32⟩
  | .hbm, ⟨55, _⟩ => ⟨S250000x1, .f32⟩
  | .hbm, ⟨56, _⟩ => ⟨S250000x576, .f32⟩
  | .hbm, ⟨57, _⟩ => ⟨S250000x576, .f32⟩
  | .hbm, ⟨58, _⟩ => ⟨S250000x256, .f32⟩
  | .hbm, ⟨59, _⟩ => ⟨S250000x256, .f32⟩
  | .hbm, ⟨60, _⟩ => ⟨S_, .f32⟩
  | .hbm, ⟨61, _⟩ => ⟨S50000x256, .f32⟩
  | .hbm, ⟨62, _⟩ => ⟨S250000x1, .i32⟩
  | .hbm, ⟨63, _⟩ => ⟨S50000x256, .f32⟩
  | .hbm, ⟨64, _⟩ => ⟨S_, .i32⟩
  | .hbm, ⟨65, _⟩ => ⟨S50000, .i32⟩
  | .hbm, ⟨66, _⟩ => ⟨S50000, .i1⟩
  | .hbm, ⟨67, _⟩ => ⟨S_, .i32⟩
  | .hbm, ⟨68, _⟩ => ⟨S50000, .i32⟩
  | .hbm, ⟨69, _⟩ => ⟨S50000, .i32⟩
  | .hbm, ⟨70, _⟩ => ⟨S50000, .i32⟩
  | .hbm, ⟨71, _⟩ => ⟨S50000x1, .i32⟩
  | .hbm, ⟨72, _⟩ => ⟨S50000x288, .f32⟩
  | .hbm, ⟨73, _⟩ => ⟨S50000x544, .f32⟩
  | _, _ => ⟨S100000x288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_c_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_5 : Ref sig .tc := ⟨.hbm, 38, rfl⟩
abbrev main_v21 : Ref sig .tc := ⟨.hbm, 39, rfl⟩
abbrev main_v22 : Ref sig .tc := ⟨.hbm, 40, rfl⟩
abbrev main_c_6 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S250000 : S_.BroadcastsInDim S250000 (![] : Fin 0 → Fin S250000.rank)
  bcast_S250000_S250000x1_0 : S250000.BroadcastsInDim S250000x1 (![0] : Fin 1 → Fin S250000x1.rank)
  concatenates_S250000x256_S250000x32_S250000x288_S250000x576_d1 : Shape.Concatenates [S250000x256, S250000x32, S250000x288] S250000x576 1
  bcast_S250000x1_S250000x576_0_1 : S250000x1.BroadcastsInDim S250000x576 (![0, 1] : Fin 2 → Fin S250000x576.rank)
  bcast_S_S250000x1 : S_.BroadcastsInDim S250000x1 (![] : Fin 0 → Fin S250000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x288_S50000x256_S50000x544_d1 : Shape.Concatenates [S50000x288, S50000x256] S50000x544 1
  gather_S201x32_S250000x1_S250000x32_1_0_n_n_0_1_132_wf : GatherDims.WF S201x32 S250000x1 S250000x32 [1] [0] [] [0] [] 1 ![1, 32]
  gather_S250000x256_S250000x1_S250000x256_1_0_n_n_0_1_1256_wf : GatherDims.WF S250000x256 S250000x1 S250000x256 [1] [0] [] [0] [] 1 ![1, 256]
  gather_S250000x32_S250000x1_S250000x32_1_0_n_n_0_1_132_wf : GatherDims.WF S250000x32 S250000x1 S250000x32 [1] [0] [] [0] [] 1 ![1, 32]
  gather_S100000x288_S250000x1_S250000x288_1_0_n_n_0_1_1288_wf : GatherDims.WF S100000x288 S250000x1 S250000x288 [1] [0] [] [0] [] 1 ![1, 288]
  dot_S250000x576_S576x256_S250000x256_1_0_0_1_n_n_wf : DotDims.WF S250000x576 S576x256 S250000x256 [1] [0] [0] [1] [] []
  scatter_S50000x256_S250000x1_S250000x256_1_0_0_1_wf : ScatterDims.WF S50000x256 S250000x1 S250000x256 [1] [0] [0] 1
  gather_S100000x288_S50000x1_S50000x288_1_0_n_n_0_1_1288_wf : GatherDims.WF S100000x288 S50000x1 S50000x288 [1] [0] [] [0] [] 1 ![1, 288]

variable [Facts₀]

def gather_S201x32_S250000x1_S250000x32_1_0_n_n_0_1_132 : GatherDims S201x32 S250000x1 S250000x32 where
  offsetDims := [1]
  collapsedSliceDims := [0]
  operandBatchingDims := []
  startIndicesBatchingDims := []
  startIndexMap := [0]
  indexVectorDim := 1
  sliceSizes := ![1, 32]
  wf := gather_S201x32_S250000x1_S250000x32_1_0_n_n_0_1_132_wf
def gather_S250000x256_S250000x1_S250000x256_1_0_n_n_0_1_1256 : GatherDims S250000x256 S250000x1 S250000x256 where
  offsetDims := [1]
  collapsedSliceDims := [0]
  operandBatchingDims := []
  startIndicesBatchingDims := []
  startIndexMap := [0]
  indexVectorDim := 1
  sliceSizes := ![1, 256]
  wf := gather_S250000x256_S250000x1_S250000x256_1_0_n_n_0_1_1256_wf
def gather_S250000x32_S250000x1_S250000x32_1_0_n_n_0_1_132 : GatherDims S250000x32 S250000x1 S250000x32 where
  offsetDims := [1]
  collapsedSliceDims := [0]
  operandBatchingDims := []
  startIndicesBatchingDims := []
  startIndexMap := [0]
  indexVectorDim := 1
  sliceSizes := ![1, 32]
  wf := gather_S250000x32_S250000x1_S250000x32_1_0_n_n_0_1_132_wf
def gather_S100000x288_S250000x1_S250000x288_1_0_n_n_0_1_1288 : GatherDims S100000x288 S250000x1 S250000x288 where
  offsetDims := [1]
  collapsedSliceDims := [0]
  operandBatchingDims := []
  startIndicesBatchingDims := []
  startIndexMap := [0]
  indexVectorDim := 1
  sliceSizes := ![1, 288]
  wf := gather_S100000x288_S250000x1_S250000x288_1_0_n_n_0_1_1288_wf
def dot_S250000x576_S576x256_S250000x256_1_0_0_1_n_n : DotDims S250000x576 S576x256 S250000x256 where
  lhsContracting := [1]
  rhsContracting := [0]
  lhsNonContracting := [0]
  rhsNonContracting := [1]
  lhsBatch := []
  rhsBatch := []
  wf := dot_S250000x576_S576x256_S250000x256_1_0_0_1_n_n_wf
def scatter_S50000x256_S250000x1_S250000x256_1_0_0_1 : ScatterDims S50000x256 S250000x1 S250000x256 where
  updateWindowDims := [1]
  insertedWindowDims := [0]
  scatterDimsToOperandDims := [0]
  indexVectorDim := 1
  wf := scatter_S50000x256_S250000x1_S250000x256_1_0_0_1_wf
def gather_S100000x288_S50000x1_S50000x288_1_0_n_n_0_1_1288 : GatherDims S100000x288 S50000x1 S50000x288 where
  offsetDims := [1]
  collapsedSliceDims := [0]
  operandBatchingDims := []
  startIndicesBatchingDims := []
  startIndexMap := [0]
  indexVectorDim := 1
  sliceSizes := ![1, 288]
  wf := gather_S100000x288_S50000x1_S50000x288_1_0_n_n_0_1_1288_wf

class Facts : Prop extends Facts₀ where

variable [Facts]
-- ==== Proof.ArgRow.lean ====
/-
  One argument's row: the value both programs compute for argument i and output column c.

  With the argument's relation row `rel` (256 entries), its relation-type row `rty` (32) and its entity row `ent`
  (288), the mask value `a` and its complement `b`, and column c of the two weight matrices `win`, `wout`
  (576 entries each, rows 0–255 meeting `rel`, 256–287 meeting `rty`, 288–575 meeting `ent`):
  the kernel adds six partial products, one per feature group and weight matrix (`rowK`); the reference joins
  the three rows into one of 576 entries (`catRow`) and adds two products over it (`rowR`). On the extended
  reals addition is commutative and associative, so splitting a sum over 576 positions into its three stretches
  and regrouping the six sums needs nothing of the summands (`rowK_eq_rowR`).

  The relation-type row itself: the kernel takes it from the table by a one-hot product, `∑ j, oneHot r j * T j`,
  which is the table's entry at `r` when `r` is one of the positions summed over (`oneHot_sum`): the other
  summands are `0 * T j = 0`, on the extended reals too.
-/
import Mathlib.Data.EReal.Operations
import Mathlib.Algebra.BigOperators.Fin

noncomputable section

open scoped BigOperators

namespace Cert.ArgRow

/-- Position `k` of the relation stretch of a 576-entry row. -/
abbrev qRel (k : Fin 256) : Fin 576 := ⟨k.val, by omega⟩
/-- Position `k` of the relation-type stretch. -/
abbrev qRty (k : Fin 32) : Fin 576 := ⟨256 + k.val, by omega⟩
/-- Position `k` of the entity stretch. -/
abbrev qEnt (k : Fin 288) : Fin 576 := ⟨288 + k.val, by omega⟩

/-- The kernel's grouping: three partial products with the mask value against `win`, then three with the
    complement against `wout`, added left to right. -/
def rowK (rel : Fin 256 → EReal) (rty : Fin 32 → EReal) (ent : Fin 288 → EReal) (a b : EReal)
    (win wout : Fin 576 → EReal) : EReal :=
  (((((∑ k : Fin 256, (rel k * a) * win (qRel k)) + (∑ k : Fin 32, (rty k * a) * win (qRty k)))
      + (∑ k : Fin 288, (ent k * a) * win (qEnt k)))
      + (∑ k : Fin 256, (rel k * b) * wout (qRel k)))
      + (∑ k : Fin 32, (rty k * b) * wout (qRty k)))
      + (∑ k : Fin 288, (ent k * b) * wout (qEnt k))

/-- The three rows joined end to end. -/
def catRow (rel : Fin 256 → EReal) (rty : Fin 32 → EReal) (ent : Fin 288 → EReal) (k : Fin 576) : EReal :=
  if h : k.val < 256 then rel ⟨k.val, h⟩
  else if h' : k.val < 288 then rty ⟨k.val - 256, by omega⟩
  else ent ⟨k.val - 288, by have := k.isLt; omega⟩

/-- The reference's grouping: one product of the joined row, masked, against each weight matrix. -/
def rowR (x : Fin 576 → EReal) (a b : EReal) (win wout : Fin 576 → EReal) : EReal :=
  (∑ k : Fin 576, (x k * a) * win k) + (∑ k : Fin 576, (x k * b) * wout k)

/-- A sum over 576 positions is the sum over its three stretches. -/
theorem sum_stretches (f : Fin 576 → EReal) :
    ∑ k : Fin 576, f k = ((∑ k : Fin 256, f (qRel k)) + (∑ k : Fin 32, f (qRty k))) + (∑ k : Fin 288, f (qEnt k)) := by
  have h1 : ∑ k : Fin (256 + 32 + 288), f k
      = ∑ k : Fin (256 + 32), f (Fin.castAdd 288 k) + ∑ k : Fin 288, f (Fin.natAdd (256 + 32) k) :=
    Fin.sum_univ_add (fun k : Fin (256 + 32 + 288) => f k)
  have h2 : ∑ k : Fin (256 + 32), f (Fin.castAdd 288 k)
      = ∑ k : Fin 256, f (Fin.castAdd 288 (Fin.castAdd 32 k)) + ∑ k : Fin 32, f (Fin.castAdd 288 (Fin.natAdd 256 k)) :=
    Fin.sum_univ_add (fun k : Fin (256 + 32) => f (Fin.castAdd 288 k))
  exact h1.trans (by rw [h2]; rfl)

/-- The kernel's six sums are the reference's two. -/
theorem rowK_eq_rowR (rel : Fin 256 → EReal) (rty : Fin 32 → EReal) (ent : Fin 288 → EReal) (a b : EReal)
    (win wout : Fin 576 → EReal) :
    rowK rel rty ent a b win wout = rowR (catRow rel rty ent) a b win wout := by
  have e1 : ∀ k : Fin 256, catRow rel rty ent (qRel k) = rel k := fun k => by
    unfold catRow; rw [dif_pos (show (qRel k).val < 256 from k.isLt)]
  have e2 : ∀ k : Fin 32, catRow rel rty ent (qRty k) = rty k := fun k => by
    unfold catRow
    rw [dif_neg (show ¬(qRty k).val < 256 by show ¬(256 + k.val < 256); omega),
      dif_pos (show (qRty k).val < 288 by show 256 + k.val < 288; omega)]
    exact congrArg rty (Fin.ext (by show 256 + k.val - 256 = k.val; omega))
  have e3 : ∀ k : Fin 288, catRow rel rty ent (qEnt k) = ent k := fun k => by
    unfold catRow
    rw [dif_neg (show ¬(qEnt k).val < 256 by show ¬(288 + k.val < 256); omega),
      dif_neg (show ¬(qEnt k).val < 288 by show ¬(288 + k.val < 288); omega)]
    exact congrArg ent (Fin.ext (by show 288 + k.val - 288 = k.val; omega))
  unfold rowK rowR
  rw [sum_stretches (fun k => (catRow rel rty ent k * a) * win k),
    sum_stretches (fun k => (catRow rel rty ent k * b) * wout k)]
  simp only [e1, e2, e3, add_assoc]

/-- The one-hot selector of position `r` among 256: one at `r`, zero elsewhere. -/
def oneHot (r : ℕ) (j : Fin 256) : EReal := if j.val = r then 1 else 0

/-- A one-hot product picks the selected entry. -/
theorem oneHot_sum (r : ℕ) (hr : r < 256) (T : Fin 256 → EReal) :
    ∑ j : Fin 256, oneHot r j * T j = T ⟨r, hr⟩ := by
  rw [Finset.sum_eq_single (⟨r, hr⟩ : Fin 256)]
  · unfold oneHot; rw [if_pos rfl, one_mul]
  · intro j _ hj
    have hne : j.val ≠ r := fun h => hj (Fin.ext h)
    unfold oneHot; rw [if_neg hne, zero_mul]
  · intro h; exact absurd (Finset.mem_univ _) h

/-- The selector as the kernel spells it: lane `j`'s number, as a 32-bit word, equals the word `r`. -/
def oneHotW (r : BitVec 32) (j : Fin 256) : EReal := if BitVec.ofNat 32 j.val = r then 1 else 0

/-- A lane number below 256 is the word `r` exactly when it is `r`'s value. -/
theorem oneHotW_eq (r : BitVec 32) (j : Fin 256) : oneHotW r j = oneHot r.toNat j := by
  unfold oneHotW oneHot
  have hj : j.val < 2 ^ 32 := lt_of_lt_of_le j.isLt (by norm_num)
  by_cases h : BitVec.ofNat 32 j.val = r
  · have : j.val = r.toNat := by rw [← h, BitVec.toNat_ofNat, Nat.mod_eq_of_lt hj]
    rw [if_pos h, if_pos this]
  · have : ¬ j.val = r.toNat := fun e => h (by rw [e, BitVec.ofNat_toNat, BitVec.setWidth_eq])
    rw [if_neg h, if_neg this]

end Cert.ArgRow

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.Payload.lean ====
/-
  What one grid point's body stores, read at row p and column c of its block.

  The body's one store is the sum of six block products. With the point's relation rows x0, entity rows x1, the
  pair (type id, mask bit) per row x2, the two weight matrices x3 (in) and x4 (out) and the padded type table x5:
  row p's relation-type row is the one-hot product of its id against x5; the mask value is the mask bit as a
  number and the complement is (1 − bit) computed in 32-bit integers, then read as a number; each product runs over
  one stretch of the weight matrix's rows. That is `rowK` of those.

  The steps. Each of the four block products, into a zero accumulator, is at (p, c) the sum over the contracted
  position k of left (p, k) times right (k, c): the contraction index has one axis, and the two operand indices
  are read off axis by axis. A stretch of a weight matrix's rows read at (k, c) is the matrix at the stretch's
  position k; a column of the pair block is that entry of the pair; a column broadcast over a block's width reads
  the column's row. The comparison of the position j with the type id, widened and read as a number, is 1 or 0:
  the one-hot entry. Format changes and casts to the same shape are the identity on extended reals, so the six
  sums come out in the body's own order of addition and nothing is regrouped.
-/
import proofs.«419473_j53790170415115_2_alg».proof.Proof.Gen.KernelIdeal.Skeleton
import proofs.«419473_j53790170415115_2_alg».proof.Proof.ArgRow
import proofs.«419473_j53790170415115_2_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen Cert.ArgRow Idealize.ShloMosaic Idealize.ShloMosaic.ValueIdx

/-! ### The one-hot block [2000, 256] against the type table [256, 32] -/

private theorem lhsHot_0 (i : S2000x32.Idx) (q : dot_S2000x256_S256x32_S2000x32_1_0_0_1_n_n.contr.Idx) :
    (dot_S2000x256_S256x32_S2000x32_1_0_0_1_n_n.lhsIdx i q 0).val = (i 0).val := by
  unfold DotDims.lhsIdx
  rw [dif_neg (show ¬(0 : Fin S2000x256.rank) ∈ dot_S2000x256_S256x32_S2000x32_1_0_0_1_n_n.lhsBatch by decide), dif_pos (show (0 : Fin S2000x256.rank) ∈ dot_S2000x256_S256x32_S2000x32_1_0_0_1_n_n.lhsNonContracting by decide)]
  rfl
private theorem lhsHot_1 (i : S2000x32.Idx) (q : dot_S2000x256_S256x32_S2000x32_1_0_0_1_n_n.contr.Idx) :
    (dot_S2000x256_S256x32_S2000x32_1_0_0_1_n_n.lhsIdx i q 1).val = (q ⟨0, by decide⟩).val :=
  dot_S2000x256_S256x32_S2000x32_1_0_0_1_n_n.lhsIdx_val_of_single rfl i q
private theorem rhsHot_0 (i : S2000x32.Idx) (q : dot_S2000x256_S256x32_S2000x32_1_0_0_1_n_n.contr.Idx) :
    (dot_S2000x256_S256x32_S2000x32_1_0_0_1_n_n.rhsIdx i q 0).val = (q ⟨0, by decide⟩).val :=
  dot_S2000x256_S256x32_S2000x32_1_0_0_1_n_n.rhsIdx_val_of_single rfl i q
private theorem rhsHot_1 (i : S2000x32.Idx) (q : dot_S2000x256_S256x32_S2000x32_1_0_0_1_n_n.contr.Idx) :
    (dot_S2000x256_S256x32_S2000x32_1_0_0_1_n_n.rhsIdx i q 1).val = (i 1).val := by
  unfold DotDims.rhsIdx
  rw [dif_neg (show ¬(1 : Fin S256x32.rank) ∈ dot_S2000x256_S256x32_S2000x32_1_0_0_1_n_n.rhsBatch by decide), dif_pos (show (1 : Fin S256x32.rank) ∈ dot_S2000x256_S256x32_S2000x32_1_0_0_1_n_n.rhsNonContracting by decide)]
  rfl

/-- Into a zero accumulator the product reads, at (p, c), the sum over k of left (p, k) times right (k, c). -/
private theorem mmHot_apply (l : FVec Ideal S2000x256 .bf16) (r : FVec Ideal S256x32 .bf16) (p : Fin 2000) (c : Fin 32) :
    matmul dot_S2000x256_S256x32_S2000x32_1_0_0_1_n_n none l r (constant (F := Ideal) S2000x32 .f32 0x00000000#32) (ix2 p c)
      = ∑ k : Fin 256, l (ix2 p k) * r (ix2 k c) := by
  refine (Ideal.matmul_constant_zero_apply dot_S2000x256_S256x32_S2000x32_1_0_0_1_n_n none l r (ix2 p c)).trans ?_
  rw [← Equiv.sum_comp (ValueIdx.contrEquiv1 dot_S2000x256_S256x32_S2000x32_1_0_0_1_n_n 256 rfl rfl).symm]
  refine Finset.sum_congr rfl fun k _ => ?_
  have hk := ValueIdx.contrEquiv1_symm_val dot_S2000x256_S256x32_S2000x32_1_0_0_1_n_n 256 rfl rfl k
  have el : dot_S2000x256_S256x32_S2000x32_1_0_0_1_n_n.lhsIdx (ix2 p c) ((ValueIdx.contrEquiv1 dot_S2000x256_S256x32_S2000x32_1_0_0_1_n_n 256 rfl rfl).symm k) = ix2 p k := funext fun a => Fin.ext (by
    match a with
    | ⟨0, _⟩ => exact lhsHot_0 _ _
    | ⟨1, _⟩ => exact (lhsHot_1 _ _).trans hk)
  have er : dot_S2000x256_S256x32_S2000x32_1_0_0_1_n_n.rhsIdx (ix2 p c) ((ValueIdx.contrEquiv1 dot_S2000x256_S256x32_S2000x32_1_0_0_1_n_n 256 rfl rfl).symm k) = ix2 k c := funext fun a => Fin.ext (by
    match a with
    | ⟨0, _⟩ => exact (rhsHot_0 _ _).trans hk
    | ⟨1, _⟩ => exact rhsHot_1 _ _)
  rw [el, er]

/-! ### A relation block [2000, 256] against a [256, 256] stretch -/

private theorem lhsRel_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
private theorem lhsRel_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
private theorem rhsRel_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
private theorem rhsRel_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into a zero accumulator the product reads, at (p, c), the sum over k of left (p, k) times right (k, c). -/
private theorem mmRel_apply (l : FVec Ideal S2000x256 .bf16) (r : FVec Ideal S256x256 .bf16) (p : Fin 2000) (c : Fin 256) :
    matmul dot_S2000x256_S256x256_S2000x256_1_0_0_1_n_n none l r (constant (F := Ideal) S2000x256 .f32 0x00000000#32) (ix2 p c)
      = ∑ k : Fin 256, l (ix2 p k) * r (ix2 k c) := by
  refine (Ideal.matmul_constant_zero_apply dot_S2000x256_S256x256_S2000x256_1_0_0_1_n_n none l r (ix2 p c)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p c) ((ValueIdx.contrEquiv1 dot_S2000x256_S256x256_S2000x256_1_0_0_1_n_n 256 rfl rfl).symm k) = ix2 p k := funext fun a => Fin.ext (by
    match a with
    | ⟨0, _⟩ => exact lhsRel_0 _ _
    | ⟨1, _⟩ => exact (lhsRel_1 _ _).trans hk)
  have er : dot_S2000x256_S256x256_S2000x256_1_0_0_1_n_n.rhsIdx (ix2 p c) ((ValueIdx.contrEquiv1 dot_S2000x256_S256x256_S2000x256_1_0_0_1_n_n 256 rfl rfl).symm k) = ix2 k c := funext fun a => Fin.ext (by
    match a with
    | ⟨0, _⟩ => exact (rhsRel_0 _ _).trans hk
    | ⟨1, _⟩ => exact rhsRel_1 _ _)
  rw [el, er]

/-! ### A relation-type block [2000, 32] against a [32, 256] stretch -/

private theorem lhsRty_0 (i : S2000x256.Idx) (q : dot_S2000x32_S32x256_S2000x256_1_0_0_1_n_n.contr.Idx) :
    (dot_S2000x32_S32x256_S2000x256_1_0_0_1_n_n.lhsIdx i q 0).val = (i 0).val := by
  unfold DotDims.lhsIdx
  rw [dif_neg (show ¬(0 : Fin S2000x32.rank) ∈ dot_S2000x32_S32x256_S2000x256_1_0_0_1_n_n.lhsBatch by decide), dif_pos (show (0 : Fin S2000x32.rank) ∈ dot_S2000x32_S32x256_S2000x256_1_0_0_1_n_n.lhsNonContracting by decide)]
  rfl
private theorem lhsRty_1 (i : S2000x256.Idx) (q : dot_S2000x32_S32x256_S2000x256_1_0_0_1_n_n.contr.Idx) :
    (dot_S2000x32_S32x256_S2000x256_1_0_0_1_n_n.lhsIdx i q 1).val = (q ⟨0, by decide⟩).val :=
  dot_S2000x32_S32x256_S2000x256_1_0_0_1_n_n.lhsIdx_val_of_single rfl i q
private theorem rhsRty_0 (i : S2000x256.Idx) (q : dot_S2000x32_S32x256_S2000x256_1_0_0_1_n_n.contr.Idx) :
    (dot_S2000x32_S32x256_S2000x256_1_0_0_1_n_n.rhsIdx i q 0).val = (q ⟨0, by decide⟩).val :=
  dot_S2000x32_S32x256_S2000x256_1_0_0_1_n_n.rhsIdx_val_of_single rfl i q
private theorem rhsRty_1 (i : S2000x256.Idx) (q : dot_S2000x32_S32x256_S2000x256_1_0_0_1_n_n.contr.Idx) :
    (dot_S2000x32_S32x256_S2000x256_1_0_0_1_n_n.rhsIdx i q 1).val = (i 1).val := by
  unfold DotDims.rhsIdx
  rw [dif_neg (show ¬(1 : Fin S32x256.rank) ∈ dot_S2000x32_S32x256_S2000x256_1_0_0_1_n_n.rhsBatch by decide), dif_pos (show (1 : Fin S32x256.rank) ∈ dot_S2000x32_S32x256_S2000x256_1_0_0_1_n_n.rhsNonContracting by decide)]
  rfl

/-- Into a zero accumulator the product reads, at (p, c), the sum over k of left (p, k) times right (k, c). -/
private theorem mmRty_apply (l : FVec Ideal S2000x32 .bf16) (r : FVec Ideal S32x256 .bf16) (p : Fin 2000) (c : Fin 256) :
    matmul dot_S2000x32_S32x256_S2000x256_1_0_0_1_n_n none l r (constant (F := Ideal) S2000x256 .f32 0x00000000#32) (ix2 p c)
      = ∑ k : Fin 32, l (ix2 p k) * r (ix2 k c) := by
  refine (Ideal.matmul_constant_zero_apply dot_S2000x32_S32x256_S2000x256_1_0_0_1_n_n none l r (ix2 p c)).trans ?_
  rw [← Equiv.sum_comp (ValueIdx.contrEquiv1 dot_S2000x32_S32x256_S2000x256_1_0_0_1_n_n 32 rfl rfl).symm]
  refine Finset.sum_congr rfl fun k _ => ?_
  have hk := ValueIdx.contrEquiv1_symm_val dot_S2000x32_S32x256_S2000x256_1_0_0_1_n_n 32 rfl rfl k
  have el : dot_S2000x32_S32x256_S2000x256_1_0_0_1_n_n.lhsIdx (ix2 p c) ((ValueIdx.contrEquiv1 dot_S2000x32_S32x256_S2000x256_1_0_0_1_n_n 32 rfl rfl).symm k) = ix2 p k := funext fun a => Fin.ext (by
    match a with
    | ⟨0, _⟩ => exact lhsRty_0 _ _
    | ⟨1, _⟩ => exact (lhsRty_1 _ _).trans hk)
  have er : dot_S2000x32_S32x256_S2000x256_1_0_0_1_n_n.rhsIdx (ix2 p c) ((ValueIdx.contrEquiv1 dot_S2000x32_S32x256_S2000x256_1_0_0_1_n_n 32 rfl rfl).symm k) = ix2 k c := funext fun a => Fin.ext (by
    match a with
    | ⟨0, _⟩ => exact (rhsRty_0 _ _).trans hk
    | ⟨1, _⟩ => exact rhsRty_1 _ _)
  rw [el, er]

/-! ### An entity block [2000, 288] against a [288, 256] stretch -/

private theorem lhsEnt_0 (i : S2000x256.Idx) (q : dot_S2000x288_S288x256_S2000x256_1_0_0_1_n_n.contr.Idx) :
    (dot_S2000x288_S288x256_S2000x256_1_0_0_1_n_n.lhsIdx i q 0).val = (i 0).val := by
  unfold DotDims.lhsIdx
  rw [dif_neg (show ¬(0 : Fin S2000x288.rank) ∈ dot_S2000x288_S288x256_S2000x256_1_0_0_1_n_n.lhsBatch by decide), dif_pos (show (0 : Fin S2000x288.rank) ∈ dot_S2000x288_S288x256_S2000x256_1_0_0_1_n_n.lhsNonContracting by decide)]
  rfl
private theorem lhsEnt_1 (i : S2000x256.Idx) (q : dot_S2000x288_S288x256_S2000x256_1_0_0_1_n_n.contr.Idx) :
    (dot_S2000x288_S288x256_S2000x256_1_0_0_1_n_n.lhsIdx i q 1).val = (q ⟨0, by decide⟩).val :=
  dot_S2000x288_S288x256_S2000x256_1_0_0_1_n_n.lhsIdx_val_of_single rfl i q
private theorem rhsEnt_0 (i : S2000x256.Idx) (q : dot_S2000x288_S288x256_S2000x256_1_0_0_1_n_n.contr.Idx) :
    (dot_S2000x288_S288x256_S2000x256_1_0_0_1_n_n.rhsIdx i q 0).val = (q ⟨0, by decide⟩).val :=
  dot_S2000x288_S288x256_S2000x256_1_0_0_1_n_n.rhsIdx_val_of_single rfl i q
private theorem rhsEnt_1 (i : S2000x256.Idx) (q : dot_S2000x288_S288x256_S2000x256_1_0_0_1_n_n.contr.Idx) :
    (dot_S2000x288_S288x256_S2000x256_1_0_0_1_n_n.rhsIdx i q 1).val = (i 1).val := by
  unfold DotDims.rhsIdx
  rw [dif_neg (show ¬(1 : Fin S288x256.rank) ∈ dot_S2000x288_S288x256_S2000x256_1_0_0_1_n_n.rhsBatch by decide), dif_pos (show (1 : Fin S288x256.rank) ∈ dot_S2000x288_S288x256_S2000x256_1_0_0_1_n_n.rhsNonContracting by decide)]
  rfl

/-- Into a zero accumulator the product reads, at (p, c), the sum over k of left (p, k) times right (k, c). -/
private theorem mmEnt_apply (l : FVec Ideal S2000x288 .bf16) (r : FVec Ideal S288x256 .bf16) (p : Fin 2000) (c : Fin 256) :
    matmul dot_S2000x288_S288x256_S2000x256_1_0_0_1_n_n none l r (constant (F := Ideal) S2000x256 .f32 0x00000000#32) (ix2 p c)
      = ∑ k : Fin 288, l (ix2 p k) * r (ix2 k c) := by
  refine (Ideal.matmul_constant_zero_apply dot_S2000x288_S288x256_S2000x256_1_0_0_1_n_n none l r (ix2 p c)).trans ?_
  rw [← Equiv.sum_comp (ValueIdx.contrEquiv1 dot_S2000x288_S288x256_S2000x256_1_0_0_1_n_n 288 rfl rfl).symm]
  refine Finset.sum_congr rfl fun k _ => ?_
  have hk := ValueIdx.contrEquiv1_symm_val dot_S2000x288_S288x256_S2000x256_1_0_0_1_n_n 288 rfl rfl k
  have el : dot_S2000x288_S288x256_S2000x256_1_0_0_1_n_n.lhsIdx (ix2 p c) ((ValueIdx.contrEquiv1 dot_S2000x288_S288x256_S2000x256_1_0_0_1_n_n 288 rfl rfl).symm k) = ix2 p k := funext fun a => Fin.ext (by
    match a with
    | ⟨0, _⟩ => exact lhsEnt_0 _ _
    | ⟨1, _⟩ => exact (lhsEnt_1 _ _).trans hk)
  have er : dot_S2000x288_S288x256_S2000x256_1_0_0_1_n_n.rhsIdx (ix2 p c) ((ValueIdx.contrEquiv1 dot_S2000x288_S288x256_S2000x256_1_0_0_1_n_n 288 rfl rfl).symm k) = ix2 k c := funext fun a => Fin.ext (by
    match a with
    | ⟨0, _⟩ => exact (rhsEnt_0 _ _).trans hk
    | ⟨1, _⟩ => exact rhsEnt_1 _ _)
  rw [el, er]

/-! ### Row stretches of a weight matrix, and the two columns of the pair block -/

/-- Rows 0–255 of a [576, 256] matrix: row k is the relation stretch's position k. -/
private theorem sliceRel_apply (v : FVec Ideal S576x256 .bf16) (h : S576x256.Slices ![0, 0] S256x256) (k : Fin 256) (c : Fin 256) :
    extractStridedSlice S256x256 ![0, 0] v h (ix2 k c) = v (ix2 (qRel k) c) :=
  extractStridedSlice_apply ![0, 0] v h (ix2 k c) (ix2 (qRel k) c) fun a => match a with
    | ⟨0, _⟩ => by show k.val = 0 + k.val; omega
    | ⟨1, _⟩ => by show c.val = 0 + c.val; omega

/-- Rows 256–287: row k is the relation-type stretch's position k. -/
private theorem sliceRty_apply (v : FVec Ideal S576x256 .bf16) (h : S576x256.Slices ![256, 0] S32x256) (k : Fin 32) (c : Fin 256) :
    extractStridedSlice S32x256 ![256, 0] v h (ix2 k c) = v (ix2 (qRty k) c) :=
  extractStridedSlice_apply ![256, 0] v h (ix2 k c) (ix2 (qRty k) c) fun a => match a with
    | ⟨0, _⟩ => by show 256 + k.val = 256 + k.val; rfl
    | ⟨1, _⟩ => by show c.val = 0 + c.val; omega

/-- Rows 288–575: row k is the entity stretch's position k. -/
private theorem sliceEnt_apply (v : FVec Ideal S576x256 .bf16) (h : S576x256.Slices ![288, 0] S288x256) (k : Fin 288) (c : Fin 256) :
    extractStridedSlice S288x256 ![288, 0] v h (ix2 k c) = v (ix2 (qEnt k) c) :=
  extractStridedSlice_apply ![288, 0] v h (ix2 k c) (ix2 (qEnt k) c) fun a => match a with
    | ⟨0, _⟩ => by show 288 + k.val = 288 + k.val; rfl
    | ⟨1, _⟩ => by show c.val = 0 + c.val; omega

/-- Column 0 of the pair block, as a [2000, 1] column. -/
private theorem col0_apply (v : IVec S2000x2 32) (h : S2000x2.Slices ![0, 0] S2000x1) (p : Fin 2000) :
    extractStridedSlice S2000x1 ![0, 0] v h (ix2 p (0 : Fin 1)) = v (ix2 p (0 : Fin 2)) :=
  extractStridedSlice_apply ![0, 0] v h (ix2 p (0 : Fin 1)) (ix2 p (0 : Fin 2)) fun a => match a with
    | ⟨0, _⟩ => by show p.val = 0 + p.val; omega
    | ⟨1, _⟩ => by show 0 = 0 + 0; rfl

/-- Column 1 of the pair block, as a [2000, 1] column. -/
private theorem col1_apply (v : IVec S2000x2 32) (h : S2000x2.Slices ![0, 1] S2000x1) (p : Fin 2000) :
    extractStridedSlice S2000x1 ![0, 1] v h (ix2 p (0 : Fin 1)) = v (ix2 p (1 : Fin 2)) :=
  extractStridedSlice_apply ![0, 1] v h (ix2 p (0 : Fin 1)) (ix2 p (1 : Fin 2)) fun a => match a with
    | ⟨0, _⟩ => by show p.val = 0 + p.val; omega
    | ⟨1, _⟩ => by show 1 = 1 + 0; rfl

/-! ### The mask value and its complement -/

/-- The mask column at row p: the pair's second entry read as a signed integer. -/
private theorem mask_apply (x2 : Vec Ideal S2000x2 .i32) (p : Fin 2000) :
    k0_pay7 (F := Ideal) x2 (ix2 p (0 : Fin 1)) = (((x2 (ix2 p (1 : Fin 2)) : BitVec 32).toInt : ℝ) : EReal) := by
  unfold k0_pay7 k0_pay5 k0_pay4
  show (((extractStridedSlice S2000x1 ![0, 1] (shapeCast S2000x2 x2 _) _ (ix2 p (0 : Fin 1)) : BitVec 32).toInt : ℝ) : EReal) = _
  rw [shapeCast_self, col1_apply]

/-- The complement column at row p: one minus the pair's second entry, in 32-bit words, read as a signed integer. -/
private theorem comp_apply (x2 : Vec Ideal S2000x2 .i32) (p : Fin 2000) :
    k0_pay8 (F := Ideal) x2 (ix2 p (0 : Fin 1)) = ((((1#32 - x2 (ix2 p (1 : Fin 2)) : BitVec 32)).toInt : ℝ) : EReal) := by
  unfold k0_pay8 k0_pay5 k0_pay4
  show ((((1#32 - extractStridedSlice S2000x1 ![0, 1] (shapeCast S2000x2 x2 _) _ (ix2 p (0 : Fin 1)) : BitVec 32)).toInt : ℝ) : EReal) = _
  rw [shapeCast_self, col1_apply]

/-! ### The one-hot row and the relation-type row -/

/-- The comparison of a position with an id, widened to 32 bits and read as a number, is the one-hot entry. -/
private theorem oneHotW_word (r : BitVec 32) (j : Fin 256) :
    ((((IntOp.cmpi .eq (BitVec.ofNat 32 j.val) r).setWidth 32).toInt : ℝ) : EReal) = oneHotW r j := by
  unfold oneHotW
  by_cases h : BitVec.ofNat 32 j.val = r
  · have e : IntOp.cmpi .eq (BitVec.ofNat 32 j.val) r = 1#1 := by
      show BitVec.ofBool (BitVec.ofNat 32 j.val == r) = 1#1
      rw [beq_iff_eq.mpr h]; rfl
    have e1 : ((1#1 : BitVec 1).setWidth 32).toInt = 1 := by decide
    rw [e, if_pos h, e1]; simp
  · have e : IntOp.cmpi .eq (BitVec.ofNat 32 j.val) r = 0#1 := by
      show BitVec.ofBool (BitVec.ofNat 32 j.val == r) = 0#1
      rw [beq_eq_false_iff_ne.mpr h]; rfl
    have e0 : ((0#1 : BitVec 1).setWidth 32).toInt = 0 := by decide
    rw [e, if_neg h, e0]; simp

/-- The one-hot block at (p, j): 1 where position j is row p's type id, else 0. -/
private theorem hot_apply (v : IVec S2000x2 32) (hs : S2000x2.Slices ![0, 0] S2000x1) (hi : S2000x256.Iotas .tc 32 [1])
    (hb : S2000x1.Broadcasts S2000x256) (hlt : 1 < 32) (p : Fin 2000) (j : Fin 256) :
    (sitofp .f32 (extui 32 (cmpi .eq (iota .tc S2000x256 32 [1] hi)
        (broadcastTo S2000x256 (extractStridedSlice S2000x1 ![0, 0] v hs) hb)) hlt) : FVec Ideal S2000x256 .f32) (ix2 p j)
      = oneHotW (v (ix2 p (0 : Fin 2))) j := by
  show ((((IntOp.cmpi .eq (iota .tc S2000x256 32 [1] hi (ix2 p j))
      (broadcastTo S2000x256 (extractStridedSlice S2000x1 ![0, 0] v hs) hb (ix2 p j))).setWidth 32).toInt : ℝ) : EReal) = _
  rw [iota_single_apply, Cert.LibColumn.broadcastTo_a1_ab_apply, col0_apply]
  exact oneHotW_word _ _

/-- Row p's relation-type row: the one-hot row of its type id against the type table. -/
private theorem rty_apply (x2 : Vec Ideal S2000x2 .i32) (x5 : Vec Ideal S256x32 .bf16) (p : Fin 2000) (k : Fin 32) :
    k0_pay6 (F := Ideal) x2 x5 (ix2 p k) = ∑ j : Fin 256, oneHotW (x2 (ix2 p (0 : Fin 2))) j * x5 (ix2 j k) := by
  unfold k0_pay6 k0_pay4
  refine (mmHot_apply _ _ p k).trans ?_
  refine Finset.sum_congr rfl fun j _ => ?_
  refine congrArg₂ (· * ·) ((hot_apply _ _ _ _ _ p j).trans ?_) (congrFun (shapeCast_self x5 _) _)
  exact congrArg (fun w : IVec S2000x2 32 => oneHotW (w (ix2 p (0 : Fin 2))) j) (shapeCast_self x2 _)

/-! ### A block scaled by a column, against one stretch of a weight matrix -/

/-- Relation rows scaled by a column, against rows 0–255 of a weight matrix. -/
private theorem prodRel_apply (x : FVec Ideal S2000x256 .bf16) (col : FVec Ideal S2000x1 .bf16) (w : FVec Ideal S576x256 .bf16)
    (hb : S2000x1.Broadcasts S2000x256) (hs : S576x256.Slices ![0, 0] S256x256) (p : Fin 2000) (c : Fin 256) :
    matmul dot_S2000x256_S256x256_S2000x256_1_0_0_1_n_n none (mulf x (broadcastTo S2000x256 col hb))
        (extractStridedSlice S256x256 ![0, 0] w hs) (constant (F := Ideal) S2000x256 .f32 0x00000000#32) (ix2 p c)
      = ∑ k : Fin 256, (x (ix2 p k) * col (ix2 p (0 : Fin 1))) * w (ix2 (qRel k) c) :=
  (mmRel_apply _ _ p c).trans (Finset.sum_congr rfl fun k _ =>
    congrArg₂ (fun a b : EReal => a * b)
      ((mulf_apply _ _ _).trans (congrArg (fun t : EReal => x (ix2 p k) * t) (Cert.LibColumn.broadcastTo_a1_ab_apply col hb p k)))
      (sliceRel_apply w hs k c))

/-- Relation-type rows scaled by a column, against rows 256–287. -/
private theorem prodRty_apply (x : FVec Ideal S2000x32 .bf16) (col : FVec Ideal S2000x1 .bf16) (w : FVec Ideal S576x256 .bf16)
    (hb : S2000x1.Broadcasts S2000x32) (hs : S576x256.Slices ![256, 0] S32x256) (p : Fin 2000) (c : Fin 256) :
    matmul dot_S2000x32_S32x256_S2000x256_1_0_0_1_n_n none (mulf x (broadcastTo S2000x32 col hb))
        (extractStridedSlice S32x256 ![256, 0] w hs) (constant (F := Ideal) S2000x256 .f32 0x00000000#32) (ix2 p c)
      = ∑ k : Fin 32, (x (ix2 p k) * col (ix2 p (0 : Fin 1))) * w (ix2 (qRty k) c) :=
  (mmRty_apply _ _ p c).trans (Finset.sum_congr rfl fun k _ =>
    congrArg₂ (fun a b : EReal => a * b)
      ((mulf_apply _ _ _).trans (congrArg (fun t : EReal => x (ix2 p k) * t) (Cert.LibColumn.broadcastTo_a1_ab_apply col hb p k)))
      (sliceRty_apply w hs k c))

/-- Entity rows scaled by a column, against rows 288–575. -/
private theorem prodEnt_apply (x : FVec Ideal S2000x288 .bf16) (col : FVec Ideal S2000x1 .bf16) (w : FVec Ideal S576x256 .bf16)
    (hb : S2000x1.Broadcasts S2000x288) (hs : S576x256.Slices ![288, 0] S288x256) (p : Fin 2000) (c : Fin 256) :
    matmul dot_S2000x288_S288x256_S2000x256_1_0_0_1_n_n none (mulf x (broadcastTo S2000x288 col hb))
        (extractStridedSlice S288x256 ![288, 0] w hs) (constant (F := Ideal) S2000x256 .f32 0x00000000#32) (ix2 p c)
      = ∑ k : Fin 288, (x (ix2 p k) * col (ix2 p (0 : Fin 1))) * w (ix2 (qEnt k) c) :=
  (mmEnt_apply _ _ p c).trans (Finset.sum_congr rfl fun k _ =>
    congrArg₂ (fun a b : EReal => a * b)
      ((mulf_apply _ _ _).trans (congrArg (fun t : EReal => x (ix2 p k) * t) (Cert.LibColumn.broadcastTo_a1_ab_apply col hb p k)))
      (sliceEnt_apply w hs k c))

/-! ### The masked half: the three products against the in-weights -/

/-- The relation and relation-type products with the mask value, at (p, c). -/
private theorem inRelRty_apply (x0 : Vec Ideal S2000x256 .bf16) (x2 : Vec Ideal S2000x2 .i32) (x5 : Vec Ideal S256x32 .bf16)
    (x3 : Vec Ideal S576x256 .bf16) (p : Fin 2000) (c : Fin 256) :
    k0_pay14 (F := Ideal) x0 x2 x5 x3 (ix2 p c)
      = (∑ k : Fin 256, (x0 (ix2 p k) * (((x2 (ix2 p (1 : Fin 2)) : BitVec 32).toInt : ℝ) : EReal)) * x3 (ix2 (qRel k) c))
        + (∑ k : Fin 32, ((∑ j : Fin 256, oneHotW (x2 (ix2 p (0 : Fin 2))) j * x5 (ix2 j k))
            * (((x2 (ix2 p (1 : Fin 2)) : BitVec 32).toInt : ℝ) : EReal)) * x3 (ix2 (qRty k) c)) := by
  unfold k0_pay14 k0_pay9 k0_pay2
  refine congrArg₂ (fun a b : EReal => a + b) ((prodRel_apply _ _ _ _ _ p c).trans ?_) ((prodRty_apply _ _ _ _ _ p c).trans ?_)
  · rw [shapeCast_self, shapeCast_self, mask_apply]
  · rw [shapeCast_self, mask_apply]
    exact Finset.sum_congr rfl fun k _ => by rw [rty_apply]

/-- The entity product with the mask value, at (p, c). -/
private theorem inEnt_apply (x1 : Vec Ideal S2000x288 .bf16) (x2 : Vec Ideal S2000x2 .i32) (x3 : Vec Ideal S576x256 .bf16)
    (p : Fin 2000) (c : Fin 256) :
    k0_pay15 (F := Ideal) x1 x2 x3 (ix2 p c)
      = ∑ k : Fin 288, (x1 (ix2 p k) * (((x2 (ix2 p (1 : Fin 2)) : BitVec 32).toInt : ℝ) : EReal)) * x3 (ix2 (qEnt k) c) := by
  unfold k0_pay15 k0_pay9 k0_pay3
  refine (prodEnt_apply _ _ _ _ _ p c).trans ?_
  rw [shapeCast_self, shapeCast_self, mask_apply]

/-! ### The stored value -/

/-- The body's stored value at (p, c), from the point's six blocks. -/
theorem pay_apply (x0 : Vec Ideal S2000x256 .bf16) (x1 : Vec Ideal S2000x288 .bf16) (x2 : Vec Ideal S2000x2 .i32)
    (x3 x4 : Vec Ideal S576x256 .bf16) (x5 : Vec Ideal S256x32 .bf16) (p : Fin 2000) (c : Fin 256) :
    k0_pay1 (F := Ideal) (k0_pay2 x0) (k0_pay3 x1) (k0_pay6 x2 x5) (k0_pay8 x2) (k0_pay11 x4) (k0_pay12 x4) (k0_pay13 x4)
        (k0_pay14 x0 x2 x5 x3) (k0_pay15 x1 x2 x3) (ix2 p c)
      = rowK (fun k => x0 (ix2 p k))
          (fun k => ∑ j : Fin 256, oneHotW (x2 (ix2 p (0 : Fin 2))) j * x5 (ix2 j k))
          (fun k => x1 (ix2 p k))
          (((x2 (ix2 p (1 : Fin 2)) : BitVec 32).toInt : ℝ) : EReal)
          ((((1#32 - x2 (ix2 p (1 : Fin 2)) : BitVec 32)).toInt : ℝ) : EReal)
          (fun k => x3 (ix2 k c)) (fun k => x4 (ix2 k c)) := by
  unfold k0_pay1 k0_pay2 k0_pay3 k0_pay11 k0_pay12 k0_pay13 k0_pay10 rowK
  refine congrArg₂ (fun a b : EReal => a + b)
    (congrArg₂ (fun a b : EReal => a + b)
      (congrArg₂ (fun a b : EReal => a + b)
        (congrArg₂ (fun a b : EReal => a + b) (inRelRty_apply x0 x2 x5 x3 p c) (inEnt_apply x1 x2 x3 p c))
        ((prodRel_apply _ _ _ _ _ p c).trans ?_))
      ((prodRty_apply _ _ _ _ _ p c).trans ?_))
    ((prodEnt_apply _ _ _ _ _ p c).trans ?_)
  · rw [shapeCast_self, shapeCast_self, comp_apply]
  · rw [shapeCast_self, comp_apply]
    exact Finset.sum_congr rfl fun k _ => by rw [rty_apply]
  · rw [shapeCast_self, shapeCast_self, comp_apply]

end Cert.KernelIdeal.Payload

end
-- ==== Proof.Blocks.lean ====
/-
  From the grid points' blocks to the whole result array of the pallas_call.

  The grid has 125 points; point t reads rows 2000 t … 2000 t + 1999 of the relation rows, the entity rows and the
  (type id, mask bit) pairs, the whole of the two weight matrices and of the padded type table, and writes rows
  2000 t … 2000 t + 1999 of the result. The 125 row blocks tile the 250000 rows, so the result array ends holding,
  at (r, q), row r's value for column q (`rowOf`), read off the arrays as the region finds them.
-/
import proofs.«419473_j53790170415115_2_alg».proof.Proof.Gen.KernelIdeal.Frame
import proofs.«419473_j53790170415115_2_alg».proof.Proof.Payload
import proofs.«419473_j53790170415115_2_alg».proof.Proof.ArgRow
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Cert.ArgRow
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps over the grid: the row-blocked windows are at block (t, 0), the whole-array windows at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem N_lt (t : Fin cfg0.N) : t.val < 125 := lt_of_lt_of_eq t.isLt (show cfg0.N = 125 from N_0)

/-- The arrays as the region finds them, at their literal types. -/
abbrev relA (c : Dev nD) : Vec Ideal S250000x256 .bf16 := V m c main_v7
abbrev entA (c : Dev nD) : Vec Ideal S250000x288 .bf16 := V m c main_v15
abbrev idmA (c : Dev nD) : Vec Ideal S250000x2 .i32 := V m c main_v29
abbrev winA (c : Dev nD) : Vec Ideal S576x256 .bf16 := V m c main_v30
abbrev woutA (c : Dev nD) : Vec Ideal S576x256 .bf16 := V m c main_v31
abbrev padA (c : Dev nD) : Vec Ideal S256x32 .bf16 := V m c main_v26

/-- Point t's relation block is rows 2000 t … of the relation rows. -/
theorem blk_rel (c : Dev nD) (t : Fin cfg0.N) (p : Fin 2000) (k : Fin 256) :
    (iblk m c 0 t : Vec Ideal S2000x256 .bf16) (ix2 p k)
      = relA m c (ix2 (⟨2000 * t.val + p.val, by have := N_lt t; omega⟩ : Fin 250000) k) := by
  obtain ⟨e0, e1, -⟩ := idx_facts t
  unfold iblk
  rw [View.read_apply]
  show V m c main_v7 _ = V m c main_v7 _
  congr 1
  funext a
  apply Fin.ext
  match a with
  | ⟨0, _⟩ => show win0_0.index t 0 * 2000 + 1 * p.val = 2000 * t.val + p.val; rw [e0]; omega
  | ⟨1, _⟩ => show win0_0.index t 1 * 256 + 1 * k.val = k.val; rw [e1]; omega

/-- Point t's entity block is rows 2000 t … of the entity rows. -/
theorem blk_ent (c : Dev nD) (t : Fin cfg0.N) (p : Fin 2000) (k : Fin 288) :
    (iblk m c 1 t : Vec Ideal S2000x288 .bf16) (ix2 p k)
      = entA m c (ix2 (⟨2000 * t.val + p.val, by have := N_lt t; omega⟩ : Fin 250000) k) := by
  obtain ⟨-, -, e0, e1, -⟩ := idx_facts t
  unfold iblk
  rw [View.read_apply]
  show V m c main_v15 _ = V m c main_v15 _
  congr 1
  funext a
  apply Fin.ext
  match a with
  | ⟨0, _⟩ => show win0_1.index t 0 * 2000 + 1 * p.val = 2000 * t.val + p.val; rw [e0]; omega
  | ⟨1, _⟩ => show win0_1.index t 1 * 288 + 1 * k.val = k.val; rw [e1]; omega

/-- Point t's (type id, mask bit) block is rows 2000 t … of the pairs. -/
theorem blk_idm (c : Dev nD) (t : Fin cfg0.N) (p : Fin 2000) (k : Fin 2) :
    (iblk m c 2 t : Vec Ideal S2000x2 .i32) (ix2 p k)
      = idmA m c (ix2 (⟨2000 * t.val + p.val, by have := N_lt t; omega⟩ : Fin 250000) k) := by
  obtain ⟨-, -, -, -, e0, e1, -⟩ := idx_facts t
  unfold iblk
  rw [View.read_apply]
  show V m c main_v29 _ = V m c main_v29 _
  congr 1
  funext a
  apply Fin.ext
  match a with
  | ⟨0, _⟩ => show win0_2.index t 0 * 2000 + 1 * p.val = 2000 * t.val + p.val; rw [e0]; omega
  | ⟨1, _⟩ => show win0_2.index t 1 * 2 + 1 * k.val = k.val; rw [e1]; omega

/-- Every point's W_in block is the whole matrix. -/
theorem blk_win (c : Dev nD) (t : Fin cfg0.N) (k : Fin 576) (q : Fin 256) :
    (iblk m c 3 t : Vec Ideal S576x256 .bf16) (ix2 k q) = winA m c (ix2 k q) := by
  obtain ⟨-, -, -, -, -, -, e0, e1, -⟩ := idx_facts t
  unfold iblk
  rw [View.read_apply]
  show V m c main_v30 _ = V m c main_v30 _
  congr 1
  funext a
  apply Fin.ext
  match a with
  | ⟨0, _⟩ => show win0_3.index t 0 * 576 + 1 * k.val = k.val; rw [e0]; omega
  | ⟨1, _⟩ => show win0_3.index t 1 * 256 + 1 * q.val = q.val; rw [e1]; omega

/-- Every point's W_out block is the whole matrix. -/
theorem blk_wout (c : Dev nD) (t : Fin cfg0.N) (k : Fin 576) (q : Fin 256) :
    (iblk m c 4 t : Vec Ideal S576x256 .bf16) (ix2 k q) = woutA m c (ix2 k q) := by
  obtain ⟨-, -, -, -, -, -, -, -, e0, e1, -⟩ := idx_facts t
  unfold iblk
  rw [View.read_apply]
  show V m c main_v31 _ = V m c main_v31 _
  congr 1
  funext a
  apply Fin.ext
  match a with
  | ⟨0, _⟩ => show win0_4.index t 0 * 576 + 1 * k.val = k.val; rw [e0]; omega
  | ⟨1, _⟩ => show win0_4.index t 1 * 256 + 1 * q.val = q.val; rw [e1]; omega

/-- Every point's type-table block is the whole padded table. -/
theorem blk_pad (c : Dev nD) (t : Fin cfg0.N) (j : Fin 256) (k : Fin 32) :
    (iblk m c 5 t : Vec Ideal S256x32 .bf16) (ix2 j k) = padA m c (ix2 j k) := by
  obtain ⟨-, -, -, -, -, -, -, -, -, -, e0, e1, -⟩ := idx_facts t
  unfold iblk
  rw [View.read_apply]
  show V m c main_v26 _ = V m c main_v26 _
  congr 1
  funext a
  apply Fin.ext
  match a with
  | ⟨0, _⟩ => show win0_5.index t 0 * 256 + 1 * j.val = j.val; rw [e0]; omega
  | ⟨1, _⟩ => show win0_5.index t 1 * 32 + 1 * k.val = k.val; rw [e1]; omega

/-- `rowK` of equal arguments. -/
theorem rowK_congr {rel rel' : Fin 256 → EReal} {rty rty' : Fin 32 → EReal} {ent ent' : Fin 288 → EReal} {a a' b b' : EReal}
    {win win' wout wout' : Fin 576 → EReal} (h1 : rel = rel') (h2 : rty = rty') (h3 : ent = ent') (h4 : a = a') (h5 : b = b')
    (h6 : win = win') (h7 : wout = wout') : rowK rel rty ent a b win wout = rowK rel' rty' ent' a' b' win' wout' := by
  subst h1 h2 h3 h4 h5 h6 h7; rfl

/-- The body's stored value at (p, q) from blocks whose entries are known: `rowK` of those entries. -/
theorem row_of_blocks (x0 : Vec Ideal S2000x256 .bf16) (x1 : Vec Ideal S2000x288 .bf16) (x2 : Vec Ideal S2000x2 .i32)
    (x3 x4 : Vec Ideal S576x256 .bf16) (x5 : Vec Ideal S256x32 .bf16) (p : Fin 2000) (q : Fin 256)
    (rel : Fin 256 → EReal) (ent : Fin 288 → EReal) (id bit : BitVec 32) (win wout : Fin 576 → EReal) (pad : Fin 256 → Fin 32 → EReal)
    (h0 : ∀ k, x0 (ix2 p k) = rel k) (h1 : ∀ k, x1 (ix2 p k) = ent k) (h20 : x2 (ix2 p (0 : Fin 2)) = id)
    (h21 : x2 (ix2 p (1 : Fin 2)) = bit) (h3 : ∀ k, x3 (ix2 k q) = win k) (h4 : ∀ k, x4 (ix2 k q) = wout k)
    (h5 : ∀ j k, x5 (ix2 j k) = pad j k) :
    k0_pay1 (F := Ideal) (k0_pay2 x0) (k0_pay3 x1) (k0_pay6 x2 x5) (k0_pay8 x2) (k0_pay11 x4) (k0_pay12 x4) (k0_pay13 x4)
        (k0_pay14 x0 x2 x5 x3) (k0_pay15 x1 x2 x3) (ix2 p q)
      = rowK rel (fun k => ∑ j : Fin 256, oneHotW id j * pad j k) ent (((bit.toInt : ℝ) : EReal))
          ((((1#32 - bit).toInt : ℝ) : EReal)) win wout :=
  (Payload.pay_apply x0 x1 x2 x3 x4 x5 p q).trans
    (rowK_congr (funext h0)
      (funext fun k => Finset.sum_congr rfl fun j _ => by rw [h20, h5 j k])
      (funext h1) (by rw [h21]) (by rw [h21]) (funext h3) (funext h4))

/-- Row r's value for column q, read off the arrays as the region finds them. -/
def rowOf (c : Dev nD) (r : Fin 250000) (q : Fin 256) : EReal :=
  rowK (fun k => relA m c (ix2 r k))
    (fun k => ∑ j : Fin 256, oneHotW (idmA m c (ix2 r (0 : Fin 2))) j * padA m c (ix2 j k))
    (fun k => entA m c (ix2 r k))
    (((idmA m c (ix2 r (1 : Fin 2)) : BitVec 32).toInt : ℝ) : EReal)
    ((((1#32 - idmA m c (ix2 r (1 : Fin 2)) : BitVec 32)).toInt : ℝ) : EReal)
    (fun k => winA m c (ix2 k q)) (fun k => woutA m c (ix2 k q))

/-- The result array: at (r, q), row r's value for column q. -/
def resultArr (c : Dev nD) : S250000x256.Idx → EReal :=
  fun i => rowOf m c (⟨(i 0).val, (i 0).isLt⟩ : Fin 250000) (⟨(i 1).val, (i 1).isLt⟩ : Fin 256)

/-- What point t writes back is block t of the result array. -/
theorem flushed_eq (c : Dev nD) (t : Fin cfg0.N) :
    (dats m 0 c).flushed 6 t = ((cfg0.win 6).blk t).view.read (Elt Ideal) (resultArr m c) := by
  show (cfg0.win 6).cut (grid0.coords t) ((dats m 0 c).after 6 t) = _
  rw [after0_6]
  unfold out0_6
  rw [View.canon_unit_zero hz]
  simp only [View.ld_unit_zero (S := S2000x256) hz, View.ld_unit_zero (S := S2000x288) hz, View.ld_unit_zero (S := S2000x2) hz,
    View.ld_unit_zero (S := S576x256) hz, View.ld_unit_zero (S := S256x32) hz]
  funext j
  obtain ⟨p, q, rfl⟩ : ∃ (p : Fin 2000) (q : Fin 256), j = ix2 p q := ⟨j 0, j 1, eq_ix2 j⟩
  obtain ⟨-, -, -, -, -, -, -, -, -, -, -, -, e0, e1⟩ := idx_facts t
  rw [View.read_apply]
  have hr : resultArr m c (((View.whole main_v32).slice ((win0 6).rect t)).emb (ix2 p q))
      = rowOf m c (⟨2000 * t.val + p.val, by have := N_lt t; omega⟩ : Fin 250000) q := by
    unfold resultArr
    congr 1
    · apply Fin.ext
      show win0_6.index t 0 * 2000 + 1 * p.val = 2000 * t.val + p.val
      rw [e0]; omega
    · apply Fin.ext
      show win0_6.index t 1 * 256 + 1 * q.val = q.val
      rw [e1]; omega
  rw [hr]
  unfold rowOf
  exact row_of_blocks (iblk m c 0 t) (iblk m c 1 t) (iblk m c 2 t) (iblk m c 3 t) (iblk m c 4 t) (iblk m c 5 t) p q
    (fun k => relA m c (ix2 (⟨2000 * t.val + p.val, by have := N_lt t; omega⟩ : Fin 250000) k))
    (fun k => entA m c (ix2 (⟨2000 * t.val + p.val, by have := N_lt t; omega⟩ : Fin 250000) k))
    (idmA m c (ix2 (⟨2000 * t.val + p.val, by have := N_lt t; omega⟩ : Fin 250000) (0 : Fin 2)))
    (idmA m c (ix2 (⟨2000 * t.val + p.val, by have := N_lt t; omega⟩ : Fin 250000) (1 : Fin 2)))
    (fun k => winA m c (ix2 k q)) (fun k => woutA m c (ix2 k q)) (fun j k => padA m c (ix2 j k))
    (fun k => blk_rel m c t p k) (fun k => blk_ent m c t p k) (blk_idm m c t p (0 : Fin 2)) (blk_idm m c t p (1 : Fin 2))
    (fun k => blk_win m c t k q) (fun k => blk_wout m c t k q) (fun j k => blk_pad m c t j k)

/-- An index of the result array is in point t's block iff its row is among the block's 2000. -/
theorem mem_blk (t : Fin cfg0.N) (i : S250000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v32).slice (win0_6.rect t)).set ↔ _
  rw [View.set_slice_whole, Rect.mem_set_unit]
  exact Iff.rfl

/-- The 125 row blocks tile the 250000 rows: row r is in block r / 2000. -/
theorem cover (i : S250000x256.Idx) :
    ∃ t : Fin cfg0.N, (cfg0.win 6).flush t = true ∧ i ∈ ((cfg0.win 6).blk t).view.set := by
  have hi0 : (i 0).val < 250000 := (i 0).isLt
  have hi1 : (i 1).val < 256 := (i 1).isLt
  let t : Fin cfg0.N := ⟨(i 0).val / 2000, by rw [show cfg0.N = 125 from N_0]; omega⟩
  obtain ⟨-, -, -, -, -, -, -, -, -, -, -, -, e0, e1⟩ := idx_facts t
  have ht : t.val = (i 0).val / 2000 := rfl
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; rw [e0, ht]; omega
  | ⟨1, _⟩ => show win0_6.index t (1 : Fin 2) * 256 ≤ (i 1).val ∧ (i 1).val < win0_6.index t (1 : Fin 2) * 256 + 256; rw [e1]; omega

/-- The result array after the run. -/
theorem final (c : Dev nD) : (dats m 0 c).arrAt 6 cfg0.N = resultArr m c :=
  (dats m 0 c).arrAt_eq_of_cover 6 (resultArr m c) (fun t _ => flushed_eq m c t) (cover)

end Cert.KernelIdeal.Blocks

end
-- ==== Proof.HostTerms.lean ====
/-
  What the kernel's program hands its one pallas_call, as functions of the argument arrays.

  Before the call the host gathers each argument's relation row and entity row from the embedding tables (the
  index first brought into range the way array indexing does: a negative index has the table's length added),
  gathers the argument's relation-type id the same way, lays the relation-type table over the first 201 rows of
  a 256-row table of zeros, pairs the type id with the mask bit in a two-column integer array, and narrows the
  float arrays to bf16 (no change of value on the extended reals). After the call it adds each argument's row
  into its trigger's row and joins the result to the triggers' own entity rows.
-/
import proofs.«419473_j53790170415115_2_alg».proof.Proof.Gen.KernelIdeal

noncomputable section

namespace Cert.KernelIdeal.HostTerms

open Cert.KernelIdeal Cert.KernelIdeal.Facts₀ Cert.KernelIdeal.Facts Idealize.ShloMosaic Idealize.SL.Sem

variable {F : FTy → Type} [FloatOps F]

/-- An index array over a table of 250000 rows, brought into range and laid out as a column of start indices. -/
def startsOf250000 (x : IVec S250000 32) : IVec S250000x1 32 :=
  broadcastInDim S250000x1 ![0] bcast_S250000_S250000x1_0
    (select (cmpi .slt x (broadcastInDim S250000 ![] bcast_S_S250000 (constantI S_ 32 0#32)))
      (addi x (broadcastInDim S250000 ![] bcast_S_S250000 (constantI S_ 32 250000#32))) x)

/-- The same over a table of 100000 rows. -/
def startsOf100000 (x : IVec S250000 32) : IVec S250000x1 32 :=
  broadcastInDim S250000x1 ![0] bcast_S250000_S250000x1_0
    (select (cmpi .slt x (broadcastInDim S250000 ![] bcast_S_S250000 (constantI S_ 32 0#32)))
      (addi x (broadcastInDim S250000 ![] bcast_S_S250000 (constantI S_ 32 100000#32))) x)

/-- Each argument's relation row (window 0's array). -/
def relRows (x1 : FVec F S250000x256 .f32) (x8 : IVec S250000 32) : FVec F S250000x256 .bf16 :=
  truncf .bf16 (Host.gather gather_S250000x256_S250000x1_S250000x256_1_0_n_n_0_1_1256 x1 (startsOf250000 x8)) bitsLt_bf16_f32

/-- Each argument's entity row (window 1's array). -/
def entRows (x0 : FVec F S100000x288 .f32) (x9 : IVec S250000 32) : FVec F S250000x288 .bf16 :=
  truncf .bf16 (Host.gather gather_S100000x288_S250000x1_S250000x288_1_0_n_n_0_1_1288 x0 (startsOf100000 x9)) bitsLt_bf16_f32

/-- Each argument's relation-type id. -/
def typeIds (x5 x8 : IVec S250000 32) : IVec S250000 32 :=
  Host.gather gather_S250000_S250000x1_S250000_n_0_n_n_0_1_1 x5 (startsOf250000 x8)

/-- The type id beside the mask bit (window 2's array). -/
def idMask (x5 x8 x10 : IVec S250000 32) : IVec S250000x2 32 :=
  concatenate S250000x2 1 [⟨S250000x1, broadcastInDim S250000x1 ![0] bcast_S250000_S250000x1_0 (typeIds x5 x8)⟩,
    ⟨S250000x1, broadcastInDim S250000x1 ![0] bcast_S250000_S250000x1_0 x10⟩] concatenates_S250000x1_S250000x1_S250000x2_d1

/-- The relation-type table over the first rows of 256 rows of zeros (window 5's array). -/
def paddedTable (x2 : FVec F S201x32 .f32) : FVec F S256x32 .bf16 :=
  truncf .bf16 (Host.scatter scatter_S256x32_S1_S201x32_01_n_0_0 (fun _ b => b)
    (broadcastInDim S256x32 ![] bcast_S_S256x32 (constant (F := F) S_ .f32 0x00000000#32))
    (broadcastInDim S1 ![] bcast_S_S1 (constantI S_ 32 0#32)) x2) bitsLt_bf16_f32

/-- A weight matrix narrowed (windows 3 and 4's arrays). -/
def narrowW (x : FVec F S576x256 .f32) : FVec F S576x256 .bf16 := truncf .bf16 x bitsLt_bf16_f32

/-- The host's lines after the call: the rows `y` summed into their triggers' rows, beside the triggers' entity rows. -/
def tail (x0 : FVec F S100000x288 .f32) (x6 : IVec S50000 32) (x7 : IVec S250000 32) (y : FVec F S250000x256 .f32) :
    FVec F S50000x544 .f32 :=
  concatenate S50000x544 1
    [⟨S50000x288, Host.gather gather_S100000x288_S50000x1_S50000x288_1_0_n_n_0_1_1288 x0
        (broadcastInDim S50000x1 ![0] bcast_S50000_S50000x1_0
          (select (cmpi .slt x6 (broadcastInDim S50000 ![] bcast_S_S50000 (constantI S_ 32 0#32)))
            (addi x6 (broadcastInDim S50000 ![] bcast_S_S50000 (constantI S_ 32 100000#32))) x6))⟩,
     ⟨S50000x256, Host.scatterAdd scatter_S50000x256_S250000x1_S250000x256_1_0_0_1
        (broadcastInDim S50000x256 ![] bcast_S_S50000x256 (constant (F := F) S_ .f32 0x00000000#32))
        (broadcastInDim S250000x1 ![0] bcast_S250000_S250000x1_0 x7) y⟩]
    concatenates_S50000x288_S50000x256_S50000x544_d1

end Cert.KernelIdeal.HostTerms

end
-- ==== Proof.HostPre.lean ====
/-
  The arrays the pallas_call's windows read, as the host lines before the call leave them: each is the
  corresponding function of the argument arrays (HostTerms).
-/
import proofs.«419473_j53790170415115_2_alg».proof.Proof.Gen.KernelIdeal.Frame
import proofs.«419473_j53790170415115_2_alg».proof.Proof.HostTerms
import Idealize.ShloMosaic.Lib.StableHlo.Run

noncomputable section

namespace Cert.KernelIdeal.HostPre

open Cert.KernelIdeal Cert.KernelIdeal.Gen Cert.KernelIdeal.HostTerms Cert.KernelIdeal.Facts₀ Cert.KernelIdeal.Facts
open Idealize.ShloMosaic Idealize.ShloMosaic.TcCoe Idealize.SL.Sem Idealize.ShloMosaic.StableHlo

variable {F : FTy → Type} [FloatOps F]
variable (m : (ℓ : Loc nD τ sig) → Buf (Elt F) ℓ)

/-- Window 0's array: the arguments' relation rows. -/
theorem V_rel (c : Dev nD) :
    (V m c main_v7 : S250000x256.Idx → Elt F .bf16)
      = relRows (m ((c : Thread nD τ).loc main_arg1)) (m ((c : Thread nD τ).loc main_arg8)) := by
  dsimp only [V, V0]
  simp only [hostOps0, List.flatten_cons, List.flatten_nil, List.append_nil, List.cons_append, List.nil_append]
  after_results
  rfl

set_option maxHeartbeats 4000000 in
/-- Window 1's array: the arguments' entity rows. -/
theorem V_ent (c : Dev nD) :
    (V m c main_v15 : S250000x288.Idx → Elt F .bf16)
      = entRows (m ((c : Thread nD τ).loc main_arg0)) (m ((c : Thread nD τ).loc main_arg9)) := by
  dsimp only [V, V0]
  simp only [hostOps0, List.flatten_cons, List.flatten_nil, List.append_nil, List.cons_append, List.nil_append]
  after_results
  rfl

set_option maxHeartbeats 4000000 in
/-- Window 2's array: each argument's type id beside its mask bit. -/
theorem V_idMask (c : Dev nD) :
    (V m c main_v29 : S250000x2.Idx → Elt F .i32)
      = idMask (m ((c : Thread nD τ).loc main_arg5)) (m ((c : Thread nD τ).loc main_arg8)) (m ((c : Thread nD τ).loc main_arg10)) := by
  dsimp only [V, V0]
  simp only [hostOps0, List.flatten_cons, List.flatten_nil, List.append_nil, List.cons_append, List.nil_append]
  after_results
  rfl

set_option maxHeartbeats 4000000 in
/-- Window 3's array: W_in narrowed. -/
theorem V_win (c : Dev nD) :
    (V m c main_v30 : S576x256.Idx → Elt F .bf16) = narrowW (m ((c : Thread nD τ).loc main_arg3)) := by
  dsimp only [V, V0]
  simp only [hostOps0, List.flatten_cons, List.flatten_nil, List.append_nil, List.cons_append, List.nil_append]
  after_results
  rfl

set_option maxHeartbeats 4000000 in
/-- Window 4's array: W_out narrowed. -/
theorem V_wout (c : Dev nD) :
    (V m c main_v31 : S576x256.Idx → Elt F .bf16) = narrowW (m ((c : Thread nD τ).loc main_arg4)) := by
  dsimp only [V, V0]
  simp only [hostOps0, List.flatten_cons, List.flatten_nil, List.append_nil, List.cons_append, List.nil_append]
  after_results
  rfl

set_option maxHeartbeats 4000000 in
/-- Window 5's array: the relation-type table padded to 256 rows. -/
theorem V_pad (c : Dev nD) :
    (V m c main_v26 : S256x32.Idx → Elt F .bf16) = paddedTable (m ((c : Thread nD τ).loc main_arg2)) := by
  dsimp only [V, V0]
  simp only [hostOps0, List.flatten_cons, List.flatten_nil, List.append_nil, List.cons_append, List.nil_append]
  after_results
  rfl

end Cert.KernelIdeal.HostPre

end
-- ==== Proof.Tail.lean ====
/-
  The kernel program's result buffer after the run: the host's lines after the call applied to the argument arrays
  and to the call's result array.
-/
import proofs.«419473_j53790170415115_2_alg».proof.Proof.Gen.KernelIdeal.Frame
import proofs.«419473_j53790170415115_2_alg».proof.Proof.HostTerms
import Idealize.ShloMosaic.Lib.StableHlo.Run

noncomputable section

namespace Cert.KernelIdeal.Tail

open Cert.KernelIdeal Cert.KernelIdeal.Gen Cert.KernelIdeal.HostTerms Cert.KernelIdeal.Facts₀ Cert.KernelIdeal.Facts
open Idealize.ShloMosaic Idealize.ShloMosaic.TcCoe Idealize.SL.Sem Idealize.ShloMosaic.StableHlo

variable {F : FTy → Type} [FloatOps F]
variable (m : (ℓ : Loc nD τ sig) → Buf (Elt F) ℓ)

set_option maxHeartbeats 4000000 in
/-- The result buffer is the host tail of the arguments and of the call's result array. -/
theorem result_eq (c : Dev nD) :
    (Pipeline.afterTail₀ cfgs (dats m) 0 (V0 m) [hostOps1] c main_v43 : S50000x544.Idx → Elt F .f32)
      = tail (m ((c : Thread nD τ).loc main_arg0)) (m ((c : Thread nD τ).loc main_arg6)) (m ((c : Thread nD τ).loc main_arg7))
          ((dats m 0 c).arrAt 6 cfg0.N) := by
  unfold Pipeline.afterTail₀
  show StableHlo.after hostOps1 _ (Proc.devRef .tc main_v43) = _
  after_results
  have h0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  have h6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans
      (V_main_arg6 m c)
  have h7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans
      (V_main_arg7 m c)
  have hy : Pipeline.withArrays (cfgs 0).spec c (V0 m c) (fun w => (dats m 0 c).arrAt w (cfgs 0).N) (Proc.devRef .tc main_v32)
      = (dats m 0 c).arrAt 6 cfg0.N :=
    Pipeline.withArrays_arr spec0 launch0.win.arr_inj c _ _ 6
  rw [h0, h6, h7, hy]
  rfl

end Cert.KernelIdeal.Tail

end
-- ==== Proof.Shared.lean ====
/-
  What the two programs compute in the same way.

  Both gather each argument's relation row and entity row with the same index handling, and both end by summing the
  per-argument rows into their triggers' rows and joining the triggers' entity rows in front. The kernel's program
  narrows some of these arrays to bf16 on the way, which changes nothing on the extended reals. So the kernel's host
  terms are the reference's stages, operation for operation.
-/
import proofs.«419473_j53790170415115_2_alg».proof.Proof.HostTerms
import proofs.«419473_j53790170415115_2_alg».proof.Proof.Gen.ReferenceIdeal.Read

noncomputable section

namespace Cert.Shared

open Idealize.ShloMosaic Cert.KernelIdeal.HostTerms Cert.ReferenceIdeal.Read

/-- The relation rows. -/
theorem relRows_eq (x1 : FVec Ideal Cert.KernelIdeal.S250000x256 .f32) (x8 : IVec Cert.KernelIdeal.S250000 32) :
    relRows (F := Ideal) x1 x8 = val_main_v13 (F := Ideal) x1 x8 := by
  unfold relRows startsOf250000 val_main_v13 val_main_v12 val_main_v11 val_main_v10 val_main_v9 val_main_v8 val_main_v7 val_main_c_2 val_main_c_1
  rfl

/-- The entity rows. -/
theorem entRows_eq (x0 : FVec Ideal Cert.KernelIdeal.S100000x288 .f32) (x9 : IVec Cert.KernelIdeal.S250000 32) :
    entRows (F := Ideal) x0 x9 = val_main_v27 (F := Ideal) x0 x9 := by
  unfold entRows startsOf100000 val_main_v27 val_main_v26 val_main_v25 val_main_v24 val_main_v23 val_main_v22 val_main_v21 val_main_c_6 val_main_c_5
  rfl

/-- A narrowed weight matrix is the matrix. -/
theorem narrowW_eq (x : FVec Ideal Cert.KernelIdeal.S576x256 .f32) : narrowW (F := Ideal) x = x := rfl

/-- The two programs' dimension records for the triggers' gather and for the sum over triggers are the same records. -/
theorem trigGather_eq : Cert.KernelIdeal.gather_S100000x288_S50000x1_S50000x288_1_0_n_n_0_1_1288
    = Cert.ReferenceIdeal.gather_S100000x288_S50000x1_S50000x288_1_0_n_n_0_1_1288 := rfl
theorem trigScatter_eq : Cert.KernelIdeal.scatter_S50000x256_S250000x1_S250000x256_1_0_0_1
    = Cert.ReferenceIdeal.scatter_S50000x256_S250000x1_S250000x256_1_0_0_1 := rfl

/-- The host tail applied to the reference's per-argument rows is the reference's result. -/
theorem tail_eq (x0 : FVec Ideal Cert.KernelIdeal.S100000x288 .f32) (x1 : FVec Ideal Cert.KernelIdeal.S250000x256 .f32)
    (x2 : FVec Ideal Cert.KernelIdeal.S201x32 .f32) (x3 x4 : FVec Ideal Cert.KernelIdeal.S576x256 .f32)
    (x5 : IVec Cert.KernelIdeal.S250000 32) (x6 : IVec Cert.KernelIdeal.S50000 32) (x7 x8 x9 x10 : IVec Cert.KernelIdeal.S250000 32) :
    tail (F := Ideal) x0 x6 x7 (val_main_v39 (F := Ideal) x0 x1 x2 x3 x4 x5 x8 x9 x10)
      = val_main_v50 (F := Ideal) x0 x1 x2 x3 x4 x5 x6 x7 x8 x9 x10 := by
  unfold tail val_main_v50 val_main_v49 val_main_v48 val_main_v47 val_main_v46 val_main_v45 val_main_v44 val_main_v43 val_main_c_9 val_main_c_8 val_main_v42 val_main_v41 val_main_v40 val_main_cst_7
  generalize val_main_v39 (F := Ideal) x0 x1 x2 x3 x4 x5 x8 x9 x10 = y
  rw [trigGather_eq, trigScatter_eq]

end Cert.Shared

end
-- ==== Proof.RefRow.lean ====
/-
  The reference's value for argument i and column c, before the sum over triggers.

  The reference joins the argument's three gathered rows into one of 576 entries, multiplies it by the mask value
  (the mask entry as a number) for one product against W_in and by one minus that for the other against W_out, and
  adds the two products. Read at (i, c) that is `rowR` of the joined row.
-/
import proofs.«419473_j53790170415115_2_alg».proof.Proof.Gen.ReferenceIdeal.Read
import proofs.«419473_j53790170415115_2_alg».proof.Proof.ArgRow
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefRow

open Cert.ReferenceIdeal Cert.ReferenceIdeal.Read Cert.ArgRow Idealize.ShloMosaic Idealize.ShloMosaic.ValueIdx

/-- The joined row read at (i, k): the entry of the first piece for k < 256, of the second for 256 ≤ k < 288, of the
    third from 288 on, each at k less the widths of the pieces before it. -/
private theorem cat_apply (x0 : FVec Ideal S100000x288 .f32) (x1 : FVec Ideal S250000x256 .f32) (x2 : FVec Ideal S201x32 .f32)
    (x5 x8 x9 : IVec S250000 32) (i : Fin 250000) (k : Fin 576) :
    val_main_v28 (F := Ideal) x0 x1 x2 x5 x8 x9 (ix2 i k)
      = catRow (fun k => val_main_v13 (F := Ideal) x1 x8 (ix2 i k))
               (fun k => val_main_v20 (F := Ideal) x2 x5 x8 (ix2 i k))
               (fun k => val_main_v27 (F := Ideal) x0 x9 (ix2 i k)) k := by
  unfold val_main_v28 catRow
  generalize val_main_v13 (F := Ideal) x1 x8 = y13
  generalize val_main_v20 (F := Ideal) x2 x5 x8 = y20
  generalize val_main_v27 (F := Ideal) x0 x9 = y27
  by_cases h : k.val < 256
  · rw [dif_pos h]
    refine concatenate_apply_piece (1 : Fin S250000x576.rank) _ _ (ix2 i k) 0 (by show 0 < 3; decide) S250000x256 y13 rfl rfl 0 rfl
      (ix2 i ⟨k.val, h⟩) ?_ ?_
    · intro b hb
      match b with
      | ⟨0, _⟩ => rfl
      | ⟨1, _⟩ => exact absurd rfl hb
    · show 0 + k.val = k.val
      omega
  · rw [dif_neg h]
    by_cases h' : k.val < 288
    · rw [dif_pos h']
      refine concatenate_apply_piece (1 : Fin S250000x576.rank) _ _ (ix2 i k) 1 (by show 1 < 3; decide) S250000x32 y20 rfl rfl 256 rfl
        (ix2 i ⟨k.val - 256, by omega⟩) ?_ ?_
      · intro b hb
        match b with
        | ⟨0, _⟩ => rfl
        | ⟨1, _⟩ => exact absurd rfl hb
      · show 256 + (k.val - 256) = k.val
        omega
    · rw [dif_neg h']
      refine concatenate_apply_piece (1 : Fin S250000x576.rank) _ _ (ix2 i k) 2 (by show 2 < 3; decide) S250000x288 y27 rfl rfl 288 rfl
        (ix2 i ⟨k.val - 288, by have := k.isLt; omega⟩) ?_ ?_
      · intro b hb
        match b with
        | ⟨0, _⟩ => rfl
        | ⟨1, _⟩ => exact absurd rfl hb
      · show 288 + (k.val - 288) = k.val
        omega

/-- The mask value broadcast along the row: at (i, k) it is the mask entry of argument i as a number. -/
private theorem mask_apply (x10 : IVec S250000 32) (i : Fin 250000) (k : Fin 576) :
    val_main_v31 (F := Ideal) x10 (ix2 i k) = (((x10 (ix1 i) : BitVec 32).toInt : ℝ) : EReal) := by
  refine (val_main_v31_apply (F := Ideal) x10 (ix2 i k)).trans ?_
  refine (val_main_v30_apply (F := Ideal) x10 _).trans ?_
  refine (val_main_v29_apply (F := Ideal) x10 _).trans ?_
  have e : idx_main_v30 (idx_main_v31 (ix2 i k)) = ix1 i :=
    funext fun a => Fin.ext (by match a with | ⟨0, _⟩ => rfl)
  rw [e]
  rfl

/-- One minus the mask value, broadcast along the row. -/
private theorem comask_apply (x10 : IVec S250000 32) (i : Fin 250000) (k : Fin 576) :
    val_main_v36 (F := Ideal) x10 (ix2 i k) = 1 - (((x10 (ix1 i) : BitVec 32).toInt : ℝ) : EReal) := by
  refine (val_main_v36_apply (F := Ideal) x10 (ix2 i k)).trans ?_
  refine (val_main_v35_apply (F := Ideal) x10 _).trans ?_
  have e1 : val_main_v34 (F := Ideal) (idx_main_v36 (ix2 i k)) = 1 := by
    refine (val_main_v34_apply (F := Ideal) _).trans ?_
    refine (val_main_cst_apply (F := Ideal) _).trans ?_
    exact Ideal.ofBits_one_f32
  have e2 : val_main_v30 (F := Ideal) x10 (idx_main_v36 (ix2 i k)) = (((x10 (ix1 i) : BitVec 32).toInt : ℝ) : EReal) := by
    refine (val_main_v30_apply (F := Ideal) x10 _).trans ?_
    refine (val_main_v29_apply (F := Ideal) x10 _).trans ?_
    have e : idx_main_v30 (idx_main_v36 (ix2 i k)) = ix1 i :=
      funext fun a => Fin.ext (by match a with | ⟨0, _⟩ => rfl)
    rw [e]
    rfl
  rw [e1, e2]
  rfl

/-- The reference's per-argument value at (i, c). -/
theorem y_apply (x0 : FVec Ideal S100000x288 .f32) (x1 : FVec Ideal S250000x256 .f32) (x2 : FVec Ideal S201x32 .f32)
    (x3 x4 : FVec Ideal S576x256 .f32) (x5 x8 x9 x10 : IVec S250000 32) (i : Fin 250000) (c : Fin 256) :
    val_main_v39 (F := Ideal) x0 x1 x2 x3 x4 x5 x8 x9 x10 (ix2 i c)
      = rowR (catRow (fun k => val_main_v13 (F := Ideal) x1 x8 (ix2 i k))
                     (fun k => val_main_v20 (F := Ideal) x2 x5 x8 (ix2 i k))
                     (fun k => val_main_v27 (F := Ideal) x0 x9 (ix2 i k)))
          (((x10 (ix1 i) : BitVec 32).toInt : ℝ) : EReal)
          (1 - (((x10 (ix1 i) : BitVec 32).toInt : ℝ) : EReal))
          (fun k => x3 (ix2 k c)) (fun k => x4 (ix2 k c)) := by
  refine (val_main_v39_apply (F := Ideal) x0 x1 x2 x3 x4 x5 x8 x9 x10 (ix2 i c)).trans ?_
  unfold rowR
  refine congrArg₂ (fun p q : EReal => p + q) ?_ ?_
  · refine (val_main_v33_apply x0 x1 x2 x3 x5 x8 x9 x10 (ix2 i c)).trans ?_
    refine Finset.sum_congr rfl fun k _ => ?_
    have el : lidx_main_v33 (ix2 i c) k = ix2 i k :=
      funext fun a => Fin.ext (by match a with | ⟨0, _⟩ => rfl | ⟨1, _⟩ => rfl)
    have er : ridx_main_v33 (ix2 i c) k = ix2 k c :=
      funext fun a => Fin.ext (by match a with | ⟨0, _⟩ => rfl | ⟨1, _⟩ => rfl)
    rw [el, er]
    refine congrArg (fun p : EReal => p * x3 (ix2 k c)) ?_
    refine (val_main_v32_apply (F := Ideal) x0 x1 x2 x5 x8 x9 x10 (ix2 i k)).trans ?_
    rw [cat_apply, mask_apply]
    rfl
  · refine (val_main_v38_apply x0 x1 x2 x4 x5 x8 x9 x10 (ix2 i c)).trans ?_
    refine Finset.sum_congr rfl fun k _ => ?_
    have el : lidx_main_v38 (ix2 i c) k = ix2 i k :=
      funext fun a => Fin.ext (by match a with | ⟨0, _⟩ => rfl | ⟨1, _⟩ => rfl)
    have er : ridx_main_v38 (ix2 i c) k = ix2 k c :=
      funext fun a => Fin.ext (by match a with | ⟨0, _⟩ => rfl | ⟨1, _⟩ => rfl)
    rw [el, er]
    refine congrArg (fun p : EReal => p * x4 (ix2 k c)) ?_
    refine (val_main_v37_apply (F := Ideal) x0 x1 x2 x5 x8 x9 x10 (ix2 i k)).trans ?_
    rw [cat_apply, comask_apply]
    rfl

end Cert.ReferenceIdeal.RefRow

end
-- ==== Proof.LibTake.lean ====
/-
  Two host operations of array indexing read at an index given by coordinates.

  `table[idx]` over a table of rows: the gather's result row `p` is the table's row at `p`'s start index, read
  signed and clamped into the table (`gather_rows`).
  `zeros.at[:n].set(v)`: a scatter with ONE start index, zero, whose window is the whole update: inside the first
  `n` rows the result is the update (`scatter_set_rows`); each update element lands at its own coordinates, no two
  at one place, so the order in which the fold writes them does not matter.
-/
import Idealize.ShloMosaic.PureOps.ShapeOps
import Idealize.ShloMosaic.Lib.ValueIdx

noncomputable section

namespace Cert.LibTake

open Idealize.ShloMosaic Idealize.ShloMosaic.ValueIdx

/-- A gather of whole rows: `offset_dims = [1]`, the row axis collapsed and start-indexed, the index vector on axis 1
    of an `[n, 1]` column of start indices. Result entry `(p, k)` is the table's entry `k` of the row that `p`'s start
    index names, read signed and clamped into `[0, N - 1]`. -/
theorem gather_rows {α : Type} {N D n w : ℕ} (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (k : Fin D) (hN : 0 < N) :
    Host.gather d x idx (ix2 p k)
      = x (ix2 (⟨min (idx (ix2 p (0 : Fin 1))).toInt.toNat (N - 1), by omega⟩ : Fin N) k) := by
  unfold Host.gather
  congr 1
  funext a
  apply Fin.ext
  have hb : ∀ a : Fin 2, a ∉ d.operandBatchingDims := by intro a; rw [hob]; exact List.not_mem_nil
  have hbd : d.batchDims = [0] := by
    show (List.finRange 2).filter (· ∉ d.offsetDims) = [0]
    rw [hoff]
    exact (by decide : (List.finRange 2).filter (fun x : Fin 2 => decide (x ∉ ([1] : List (Fin 2)))) = [0])
  have hsk : d.sKept = [1] := by
    show (List.finRange 2).filter (· ∉ d.collapsedSliceDims ++ d.operandBatchingDims) = [1]
    rw [hcoll, hob]
    exact (by decide : (List.finRange 2).filter (fun x : Fin 2 => decide (x ∉ ([0] : List (Fin 2)) ++ [])) = [1])
  match a with
  | ⟨0, _⟩ =>
    -- the row axis: collapsed (slice size 1, no offset), no batching, its start the clamped start index of row `p`
    have hk : (0 : Fin 2) ∉ d.sKept := by rw [hsk]; exact (by decide : (0 : Fin 2) ∉ ([1] : List (Fin 2)))
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p k) idx 0 + d.batchCoord (ix2 p k) 0 + d.offCoord (ix2 p k) 0 = min (idx (ix2 p 0)).toInt.toNat (N - 1)
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p 0)).toInt.toNat (N - 1)
    rw [hsl]
    congr 3
    congr 1
    funext b
    match b with
    | ⟨0, _⟩ =>
      -- the start indices' axis 0 reads the result's one batch axis, axis 0: coordinate `p`
      unfold GatherDims.siIdx
      rw [dif_neg (by rw [hivd]; simp)]
      unfold GatherDims.siCoord
      apply Fin.ext
      simp only [Fin.val_cast]
      have hmem : ∀ c ∈ d.batchDims, c = 0 := by rw [hbd]; intro c hc; exact List.mem_singleton.mp hc
      have hX : ∀ (i : ℕ) (hi : i < d.batchDims.length), d.batchDims[i] = 0 := fun i hi => hmem _ (List.getElem_mem hi)
      rw [hX]; rfl
    | ⟨1, _⟩ =>
      -- the index vector's axis: component 0, the place of operand axis 0 in the start index map
      unfold GatherDims.siIdx
      rw [dif_pos (by rw [hivd])]
      apply Fin.ext
      show List.idxOf (0 : Fin 2) d.startIndexMap = 0
      rw [hsim]; simp
  | ⟨1, _⟩ =>
    -- the column axis: not start-indexed (start 0), no batching, its offset the result's coordinate on offset axis 1
    have hk : (1 : Fin 2) ∈ d.sKept := by rw [hsk]; exact List.mem_singleton.mpr rfl
    have hm : (1 : Fin 2) ∉ d.startIndexMap := by rw [hsim]; exact (by decide : (1 : Fin 2) ∉ ([0] : List (Fin 2)))
    show d.start (ix2 p k) idx 1 + d.batchCoord (ix2 p k) 1 + d.offCoord (ix2 p k) 1 = k.val
    rw [GatherDims.batchCoord_eq_zero _ _ _ (hb 1), Nat.add_zero]
    unfold GatherDims.start GatherDims.offCoord
    rw [dif_neg hm, dif_pos hk, Nat.zero_add]
    have hmem : ∀ b ∈ d.offsetDims, b = 1 := by rw [hoff]; intro b hb'; exact List.mem_singleton.mp hb'
    have hX : d.offsetDims[List.idxOf (1 : Fin 2) d.sKept]'(by
        rw [d.offset_length]; exact List.idxOf_lt_length_iff.2 hk) = 1 := hmem _ (List.getElem_mem _)
    rw [hX]; rfl

/-- A fold of overwriting steps leaves at a place no step lands on the value it started with. -/
private theorem foldl_untouched {ι κ β : Type} (φ : ι → Option κ) (step : (κ → β) → ι → κ → β)
    (hsome : ∀ r n i i', φ n = some i → i' ≠ i → step r n i' = r i')
    (hnone : ∀ r n, φ n = none → step r n = r) (j : κ) :
    ∀ (L : List ι) (r : κ → β), (∀ n ∈ L, φ n ≠ some j) → L.foldl step r j = r j := by
  intro L
  induction L with
  | nil => intro r _; rfl
  | cons a L ih =>
    intro r h
    rw [List.foldl_cons, ih (step r a) fun n hn => h n (List.mem_cons_of_mem _ hn)]
    have ha : φ a ≠ some j := h a List.mem_cons_self
    cases hφ : φ a with
    | none => rw [hnone r a hφ]
    | some i =>
      exact hsome r a i j hφ fun hji => ha (by rw [hφ, hji])

/-- A fold of overwriting steps over a list without repeats: at a place exactly one step lands on, the result is
    that step's value, whatever the order. -/
private theorem foldl_landed {ι κ β : Type} (φ : ι → Option κ) (g : ι → β) (step : (κ → β) → ι → κ → β)
    (hhit : ∀ r n i, φ n = some i → step r n i = g n)
    (hsome : ∀ r n i i', φ n = some i → i' ≠ i → step r n i' = r i')
    (hnone : ∀ r n, φ n = none → step r n = r) (n₀ : ι) (j : κ) (hj : φ n₀ = some j) :
    ∀ (L : List ι) (r : κ → β), L.Nodup → n₀ ∈ L → (∀ n ∈ L, φ n = some j → n = n₀) → L.foldl step r j = g n₀ := by
  intro L
  induction L with
  | nil => intro r _ hm; exact absurd hm List.not_mem_nil
  | cons a L ih =>
    intro r hnd hm huniq
    rw [List.foldl_cons]
    have hnd' := List.nodup_cons.mp hnd
    rcases List.mem_cons.mp hm with rfl | hm'
    · rw [foldl_untouched φ step hsome hnone j L (step r n₀) fun n hn hφ =>
        hnd'.1 (huniq n (List.mem_cons_of_mem _ hn) hφ ▸ hn)]
      exact hhit r n₀ j hj
    · exact ih (step r a) hnd'.2 hm' fun n hn => huniq n (List.mem_cons_of_mem _ hn)

/-- With these dimension numbers and a zero start index, update index `j` lands at the operand index with `j`'s own
    coordinates: the start is zero on both axes and the window coordinate on each axis is `j`'s. -/
private theorem resultIdx?_set_rows {N D n w : ℕ} (d : ScatterDims ⟨2, ![N, D]⟩ ⟨1, ![1]⟩ ⟨2, ![n, D]⟩)
    (huw : d.updateWindowDims = [0, 1]) (hiw : d.insertedWindowDims = []) (hsd : d.scatterDimsToOperandDims = [0])
    (idx : IVec ⟨1, ![1]⟩ w) (hidx : (idx (ix1 (0 : Fin 1))).toInt = 0) (hn : n ≤ N)
    (j : (⟨2, ![n, D]⟩ : Shape).Idx) :
    d.resultIdx? j idx = some (ix2 (⟨(j 0).val, lt_of_lt_of_le (idx2_lt0 j) hn⟩ : Fin N) (j 1)) := by
  have hsk : d.sKept = [0, 1] := by
    show (List.finRange 2).filter (· ∉ d.insertedWindowDims) = [0, 1]
    rw [hiw]
    exact (by decide : (List.finRange 2).filter (fun x : Fin 2 => decide (x ∉ ([] : List (Fin 2)))) = [0, 1])
  -- the start: the one start index, zero, on axis 0; nothing on axis 1
  have hstart0 : d.start j idx 0 = 0 := by
    have hm : (0 : Fin 2) ∈ d.scatterDimsToOperandDims := by rw [hsd]; exact List.mem_singleton.mpr rfl
    unfold ScatterDims.start
    rw [dif_pos hm]
    have hsi : ∀ c, d.siIdx j c = ix1 (0 : Fin 1) := by
      intro c
      rw [eq_ix1 (d.siIdx j c)]
      congr 1
      exact Subsingleton.elim (α := Fin 1) _ _
    rw [hsi, hidx]
  have hstart1 : d.start j idx 1 = 0 := by
    have hm : (1 : Fin 2) ∉ d.scatterDimsToOperandDims := by
      rw [hsd]; exact (by decide : (1 : Fin 2) ∉ ([0] : List (Fin 2)))
    unfold ScatterDims.start
    rw [dif_neg hm]
  have hstart : ∀ a : Fin 2, d.start j idx a = 0 := fun a =>
    match a with
    | ⟨0, _⟩ => hstart0
    | ⟨1, _⟩ => hstart1
  -- the window coordinate: update axis `a` goes to operand axis `a`
  have hget : ∀ (i : ℕ) (hi : i < d.updateWindowDims.length), (d.updateWindowDims[i]).val = i := by
    intro i hi
    rw [List.getElem_of_eq huw hi]
    have hi' : i < 2 := by rw [huw] at hi; exact hi
    match i, hi' with
    | 0, _ => rfl
    | 1, _ => rfl
  have hwin : ∀ a : Fin 2, d.window j a = (j a).val := by
    intro a
    have ha : a ∈ d.sKept := by
      rw [hsk]; exact (by decide : ∀ a : Fin 2, a ∈ ([0, 1] : List (Fin 2))) a
    unfold ScatterDims.window
    rw [dif_pos ha]
    have hX : d.updateWindowDims[d.sKept.idxOf a]'(by
        rw [d.window_length]; exact List.idxOf_lt_length_iff.2 ha) = a := by
      apply Fin.ext
      rw [hget, hsk]
      exact (by decide : ∀ a : Fin 2, List.idxOf a ([0, 1] : List (Fin 2)) = a.val) a
    rw [hX]
  have h : ∀ a, 0 ≤ d.start j idx a + d.window j a ∧ d.start j idx a + d.window j a < (⟨2, ![N, D]⟩ : Shape).size a := by
    intro a
    rw [hstart a, hwin a]
    refine ⟨by omega, ?_⟩
    match a with
    | ⟨0, _⟩ => have := idx2_lt0 j; show (0 : ℤ) + ((j 0).val : ℤ) < (N : ℤ); omega
    | ⟨1, _⟩ => have := idx2_lt1 j; show (0 : ℤ) + ((j 1).val : ℤ) < (D : ℤ); omega
  unfold ScatterDims.resultIdx?
  rw [dif_pos h]
  congr 1
  funext a
  apply Fin.ext
  show (d.start j idx a + d.window j a).toNat = _
  rw [hstart a, hwin a]
  match a with
  | ⟨0, _⟩ => show ((0 : ℤ) + ((j 0).val : ℤ)).toNat = (j 0).val; omega
  | ⟨1, _⟩ => show ((0 : ℤ) + ((j 1).val : ℤ)).toNat = (j 1).val; omega

/-- A scatter that sets a block of `n` whole rows at start index zero: `update_window_dims = [0, 1]`, no inserted
    axis, one start index for the row axis. Inside the block the result is the update. -/
theorem scatter_set_rows {α : Type} {N D n w : ℕ} (d : ScatterDims ⟨2, ![N, D]⟩ ⟨1, ![1]⟩ ⟨2, ![n, D]⟩)
    (huw : d.updateWindowDims = [0, 1]) (hiw : d.insertedWindowDims = []) (hsd : d.scatterDimsToOperandDims = [0])
    (hivd : d.indexVectorDim = 0)
    (x : (⟨2, ![N, D]⟩ : Shape).Idx → α) (idx : IVec ⟨1, ![1]⟩ w) (hidx : (idx (ix1 (0 : Fin 1))).toInt = 0)
    (upd : (⟨2, ![n, D]⟩ : Shape).Idx → α) (r : Fin n) (k : Fin D) (hn : n ≤ N) :
    Host.scatter d (fun _ b => b) x idx upd (ix2 (⟨r.val, by omega⟩ : Fin N) k) = upd (ix2 r k) := by
  have hland := resultIdx?_set_rows d huw hiw hsd idx hidx hn
  have hg : upd ((⟨2, ![n, D]⟩ : Shape).rowMajor.symm ((⟨2, ![n, D]⟩ : Shape).rowMajor (ix2 r k))) = upd (ix2 r k) := by
    rw [Equiv.symm_apply_apply]
  rw [← hg]
  unfold Host.scatter
  refine foldl_landed
    (φ := fun m : Fin (⟨2, ![n, D]⟩ : Shape).numel => d.resultIdx? ((⟨2, ![n, D]⟩ : Shape).rowMajor.symm m) idx)
    (g := fun m => upd ((⟨2, ![n, D]⟩ : Shape).rowMajor.symm m))
    (step := _) ?_ ?_ ?_
    ((⟨2, ![n, D]⟩ : Shape).rowMajor (ix2 r k)) (ix2 (⟨r.val, by omega⟩ : Fin N) k) ?_
    (List.finRange _) x (List.nodup_finRange _) (List.mem_finRange _) ?_
  · intro r m i hφ; simp only [hφ, ↓reduceIte]
  · intro r m i i' hφ hne; simp only [hφ, if_neg hne]
  · intro r m hφ; simp only [hφ]
  · simp only [Equiv.symm_apply_apply]; rw [hland]; rfl
  · -- the landing keeps both coordinates, so only the update index (r, k) lands at (r, k)
    intro m _ hφ
    simp only [hland] at hφ
    have he := Option.some.inj hφ
    rw [← Equiv.symm_apply_eq, eq_ix2 ((⟨2, ![n, D]⟩ : Shape).rowMajor.symm m)]
    have h0 := congrArg Fin.val (congrFun he 0)
    have h1 := congrFun he 1
    have e0 : (((⟨2, ![n, D]⟩ : Shape).rowMajor.symm m 0 : Fin n)) = r := Fin.ext h0
    have e1 : (((⟨2, ![n, D]⟩ : Shape).rowMajor.symm m 1 : Fin D)) = k := h1
    exact congrArg₂ (ix2 (n0 := n) (n1 := D)) e0 e1

end Cert.LibTake

end
-- ==== Proof.RtyRow.lean ====
/-
  An argument's relation-type row, the kernel's way and the reference's.

  The reference gathers the table's rows by relation (`table[type_ids]`) and then those rows by argument
  (`…[arg_rel]`). The kernel gathers the type id by argument and picks the row out of the table, padded to 256 rows,
  by a one-hot product. When every type id is a row of the table (0 ≤ id < 201) the index handling of the
  reference's first gather (add 201 to a negative index, clamp into 0…200) leaves the id as it is, the padded
  table's row at the id is the table's, and the one-hot product is that row: the two agree.
-/
import proofs.«419473_j53790170415115_2_alg».proof.Proof.HostTerms
import proofs.«419473_j53790170415115_2_alg».proof.Proof.Gen.ReferenceIdeal.Read
import proofs.«419473_j53790170415115_2_alg».proof.Proof.ArgRow
import proofs.«419473_j53790170415115_2_alg».proof.Proof.LibTake
import Idealize.ShloMosaic.Lib.Pipeline.Value
import Idealize.ShloMosaic.Lib.ValueIdx
import Idealize.ShloMosaic.Lib.StableHlo.Predicate
import Idealize.ShloMosaic.PureOps.Ideal.Laws

noncomputable section

open scoped BigOperators

namespace Cert.RtyRow

open Cert.ArgRow Idealize.ShloMosaic Idealize.ShloMosaic.ValueIdx

/-- The rank-1 index at a coordinate, in the two spellings. -/
private theorem ofFin_eq_ix1 {n : Nat} (p : Fin n) : (Shape.Idx.ofFin p : (⟨1, ![n]⟩ : Shape).Idx) = ix1 p := by
  funext a; match a with | ⟨0, _⟩ => rfl

/-- Row `p` of a column, in the two spellings. -/
private theorem ixP_eq_ix2 {n : Nat} (p : Fin n) :
    (StableHlo.Predicate.ixP p : (⟨2, ![n, 1]⟩ : Shape).Idx) = ix2 p (0 : Fin 1) := by
  funext a; match a with | ⟨0, _⟩ => rfl | ⟨1, _⟩ => rfl

/-- The kernel's type id of argument `i`: the id table at the argument's start index, read signed and clamped. -/
private theorem typeIds_at (x5 x8 : IVec Cert.KernelIdeal.S250000 32) (i : Fin 250000) :
    Cert.KernelIdeal.HostTerms.typeIds x5 x8 (ix1 i)
      = x5 (ix1 (⟨min (Cert.KernelIdeal.HostTerms.startsOf250000 x8 (ix2 i (0 : Fin 1))).toInt.toNat 249999, by omega⟩ : Fin 250000)) := by
  unfold Cert.KernelIdeal.HostTerms.typeIds
  have h := StableHlo.Predicate.gather_take Cert.KernelIdeal.gather_S250000_S250000x1_S250000_n_0_n_n_0_1_1 rfl rfl rfl rfl x5
    (Cert.KernelIdeal.HostTerms.startsOf250000 x8) i (by decide)
  rw [ofFin_eq_ix1, ofFin_eq_ix1] at h
  refine h.trans (congrArg x5 (congrArg ix1 (Fin.ext ?_)))
  show min (Cert.KernelIdeal.HostTerms.startsOf250000 x8 (StableHlo.Predicate.ixP i)).toInt.toNat (250000 - 1)
    = min (Cert.KernelIdeal.HostTerms.startsOf250000 x8 (ix2 i (0 : Fin 1))).toInt.toNat 249999
  rw [ixP_eq_ix2]

/-- The reference's entry `(i, k)`: the table's entry `k` of the row named by the relation named by the argument, each
    start index read signed and clamped into its table. -/
private theorem ref_at (x2 : FVec Ideal Cert.ReferenceIdeal.S201x32 .f32) (x5 x8 : IVec Cert.ReferenceIdeal.S250000 32)
    (i : Fin 250000) (k : Fin 32) :
    Cert.ReferenceIdeal.Read.val_main_v20 (F := Ideal) x2 x5 x8 (ix2 i k)
      = x2 (ix2 (⟨min (Cert.ReferenceIdeal.Read.val_main_v5 (F := Ideal) x5
            (ix2 (⟨min (Cert.ReferenceIdeal.Read.val_main_v19 (F := Ideal) x8 (ix2 i (0 : Fin 1))).toInt.toNat 249999, by omega⟩ : Fin 250000)
              (0 : Fin 1))).toInt.toNat 200, by omega⟩ : Fin 201) k) := by
  unfold Cert.ReferenceIdeal.Read.val_main_v20
  refine (Cert.LibTake.gather_rows Cert.ReferenceIdeal.gather_S250000x32_S250000x1_S250000x32_1_0_n_n_0_1_132 rfl rfl rfl rfl rfl
    (Cert.ReferenceIdeal.Read.val_main_v6 (F := Ideal) x2 x5) (Cert.ReferenceIdeal.Read.val_main_v19 (F := Ideal) x8) i k (by decide)).trans ?_
  unfold Cert.ReferenceIdeal.Read.val_main_v6
  exact Cert.LibTake.gather_rows Cert.ReferenceIdeal.gather_S201x32_S250000x1_S250000x32_1_0_n_n_0_1_132 rfl rfl rfl rfl rfl
    x2 (Cert.ReferenceIdeal.Read.val_main_v5 (F := Ideal) x5) _ k (by decide)

/-- Array indexing's treatment of a signed index over a table of `n` rows: a negative index has `n` added. -/
private def wrapIdx (n w : BitVec 32) : BitVec 32 := Scalar.select (IntOp.cmpi .slt w 0#32) (IntOp.addi w n) w

/-- The kernel's start word of argument `i`. -/
private theorem kstart_at (x8 : IVec Cert.KernelIdeal.S250000 32) (i : Fin 250000) :
    Cert.KernelIdeal.HostTerms.startsOf250000 x8 (ix2 i (0 : Fin 1)) = wrapIdx 250000#32 (x8 (ix1 i)) := by
  unfold Cert.KernelIdeal.HostTerms.startsOf250000
  refine (broadcastInDim_apply _ Cert.KernelIdeal.Facts₀.bcast_S250000_S250000x1_0 _ (ix2 i (0 : Fin 1)) (ix1 i) (fun a => match a with
    | ⟨0, _⟩ => by show i.val = if (250000 : Nat) = 1 then 0 else i.val; rw [if_neg (by decide)])).trans ?_
  rfl

/-- The reference's outer start word of argument `i`: the same word. -/
private theorem rstart_at (x8 : IVec Cert.ReferenceIdeal.S250000 32) (i : Fin 250000) :
    Cert.ReferenceIdeal.Read.val_main_v19 (F := Ideal) x8 (ix2 i (0 : Fin 1)) = wrapIdx 250000#32 (x8 (ix1 i)) := by
  rw [Cert.ReferenceIdeal.Read.val_main_v19_apply]
  have e : Cert.ReferenceIdeal.Read.idx_main_v19 (ix2 i (0 : Fin 1)) = ix1 i := by
    funext a; match a with | ⟨0, _⟩ => rfl
  rw [e]
  rfl

/-- The reference's inner start word of relation `j`. -/
private theorem rinner_at (x5 : IVec Cert.ReferenceIdeal.S250000 32) (j : Fin 250000) :
    Cert.ReferenceIdeal.Read.val_main_v5 (F := Ideal) x5 (ix2 j (0 : Fin 1)) = wrapIdx 201#32 (x5 (ix1 j)) := by
  rw [Cert.ReferenceIdeal.Read.val_main_v5_apply]
  have e : Cert.ReferenceIdeal.Read.idx_main_v5 (ix2 j (0 : Fin 1)) = ix1 j := by
    funext a; match a with | ⟨0, _⟩ => rfl
  rw [e]
  rfl

/-- A non-negative index is left as it is. -/
private theorem wrapIdx_of_nonneg (n r : BitVec 32) (h0 : 0 ≤ r.toInt) : wrapIdx n r = r := by
  unfold wrapIdx
  have hc : IntOp.cmpi .slt r 0#32 = 0#1 := by
    unfold IntOp.cmpi
    have : r.slt 0#32 = false := by
      simp only [BitVec.slt, BitVec.toInt_zero, decide_eq_false_iff_not, not_lt]
      exact h0
    rw [this]; rfl
  rw [hc, select_zero]

/-- A word whose signed value is in `[0, 201)` is that natural number. -/
private theorem toNat_of_small (r : BitVec 32) (h0 : 0 ≤ r.toInt) (h1 : r.toInt < 201) :
    r.toInt.toNat = r.toNat ∧ r.toNat < 201 := by
  have hlt : r.toNat < 2 ^ 31 := by
    by_contra hge
    have hneg : r.toInt < 0 := by
      rw [BitVec.toInt_eq_toNat_cond]
      have := r.isLt
      split <;> omega
    omega
  have e : r.toInt = r.toNat := StableHlo.Predicate.toInt_eq_toNat_of_lt hlt
  constructor
  · rw [e]; exact Int.toNat_natCast _
  · omega

/-- Below row 201 the padded table is the table. -/
private theorem padded_at (x2 : FVec Ideal Cert.KernelIdeal.S201x32 .f32) (r : Fin 201) (k : Fin 32) :
    Cert.KernelIdeal.HostTerms.paddedTable (F := Ideal) x2 (ix2 (⟨r.val, by omega⟩ : Fin 256) k) = x2 (ix2 r k) := by
  unfold Cert.KernelIdeal.HostTerms.paddedTable
  rw [truncf_apply]
  exact Cert.LibTake.scatter_set_rows Cert.KernelIdeal.scatter_S256x32_S1_S201x32_01_n_0_0 rfl rfl rfl rfl _
    (broadcastInDim Cert.KernelIdeal.S1 ![] Cert.KernelIdeal.Facts₀.bcast_S_S1 (constantI Cert.KernelIdeal.S_ 32 0#32))
    (by decide) x2 r k (by decide)

/-- The kernel's type id of argument `i` is the id table at row `j`, the argument's relation brought into range. -/
private theorem typeIds_row (x5 x8 : IVec Cert.KernelIdeal.S250000 32) (i j : Fin 250000)
    (hj : j.val = min (wrapIdx 250000#32 (x8 (ix1 i))).toInt.toNat 249999) :
    Cert.KernelIdeal.HostTerms.typeIds x5 x8 (ix1 i) = x5 (ix1 j) := by
  refine (typeIds_at x5 x8 i).trans (congrArg x5 (congrArg ix1 (Fin.ext ?_)))
  show min (Cert.KernelIdeal.HostTerms.startsOf250000 x8 (ix2 i (0 : Fin 1))).toInt.toNat 249999 = j.val
  rw [kstart_at, hj]

/-- The reference's entry `(i, k)` is the table's entry `k` of row `m`, the type id at row `j` brought into range. -/
private theorem ref_row (x2 : FVec Ideal Cert.ReferenceIdeal.S201x32 .f32) (x5 x8 : IVec Cert.ReferenceIdeal.S250000 32)
    (i j : Fin 250000) (k : Fin 32) (m : Fin 201)
    (hj : j.val = min (wrapIdx 250000#32 (x8 (ix1 i))).toInt.toNat 249999)
    (hm : m.val = min (wrapIdx 201#32 (x5 (ix1 j))).toInt.toNat 200) :
    Cert.ReferenceIdeal.Read.val_main_v20 (F := Ideal) x2 x5 x8 (ix2 i k) = x2 (ix2 m k) := by
  refine (ref_at x2 x5 x8 i k).trans (congrArg x2 (congrArg (fun a : Fin 201 => ix2 a k) (Fin.ext ?_)))
  have ej : (⟨min (Cert.ReferenceIdeal.Read.val_main_v19 (F := Ideal) x8 (ix2 i (0 : Fin 1))).toInt.toNat 249999, by omega⟩ : Fin 250000) = j :=
    Fin.ext (by
      show min (Cert.ReferenceIdeal.Read.val_main_v19 (F := Ideal) x8 (ix2 i (0 : Fin 1))).toInt.toNat 249999 = j.val
      rw [rstart_at, hj])
  show min (Cert.ReferenceIdeal.Read.val_main_v5 (F := Ideal) x5 (ix2 (⟨min (Cert.ReferenceIdeal.Read.val_main_v19 (F := Ideal) x8
    (ix2 i (0 : Fin 1))).toInt.toNat 249999, by omega⟩ : Fin 250000) (0 : Fin 1))).toInt.toNat 200 = m.val
  rw [ej, rinner_at, hm]

/-- The one-hot product against the padded table is the reference's twice-gathered row. -/
theorem rty_eq (x2 : FVec Ideal Cert.KernelIdeal.S201x32 .f32) (x5 x8 : IVec Cert.KernelIdeal.S250000 32)
    (h5 : ∀ j : Fin 250000, 0 ≤ (x5 (ix1 j)).toInt ∧ (x5 (ix1 j)).toInt < 201)
    (i : Fin 250000) (k : Fin 32) :
    ∑ j : Fin 256, oneHotW (Cert.KernelIdeal.HostTerms.typeIds x5 x8 (ix1 i)) j
        * Cert.KernelIdeal.HostTerms.paddedTable (F := Ideal) x2 (ix2 j k)
      = Cert.ReferenceIdeal.Read.val_main_v20 (F := Ideal) x2 x5 x8 (ix2 i k) := by
  -- the argument's relation, brought into range: a row of the id table
  let j : Fin 250000 := ⟨min (wrapIdx 250000#32 (x8 (ix1 i))).toInt.toNat 249999, by omega⟩
  -- its type id: a row of the table
  obtain ⟨h0, h1⟩ := h5 j
  obtain ⟨hnat, hlt⟩ := toNat_of_small (x5 (ix1 j)) h0 h1
  let m : Fin 201 := ⟨(x5 (ix1 j)).toNat, hlt⟩
  have hm : m.val = min (wrapIdx 201#32 (x5 (ix1 j))).toInt.toNat 200 := by
    rw [wrapIdx_of_nonneg _ _ h0, hnat]
    show (x5 (ix1 j)).toNat = min (x5 (ix1 j)).toNat 200
    omega
  rw [ref_row x2 x5 x8 i j k m rfl hm, typeIds_row x5 x8 i j rfl]
  simp only [oneHotW_eq]
  rw [oneHot_sum (x5 (ix1 j)).toNat (by omega) (fun j' : Fin 256 => Cert.KernelIdeal.HostTerms.paddedTable (F := Ideal) x2 (ix2 j' k))]
  exact padded_at x2 m k

end Cert.RtyRow

end
-- ==== Proof.IdMask.lean ====
/-
  The two-column integer array the kernel's program builds: column 0 is the argument's relation-type id, column 1
  its mask entry. And the one arithmetic fact about a mask entry that is 0 or 1: (1 − entry), computed in 32-bit
  integers and then read as a number, is one minus the entry read as a number.
-/
import proofs.«419473_j53790170415115_2_alg».proof.Proof.HostTerms
import Idealize.ShloMosaic.Lib.Pipeline.Value
import Idealize.ShloMosaic.Lib.ValueIdx
import Mathlib.Data.EReal.Operations

noncomputable section

namespace Cert.KernelIdeal.IdMask

open Cert.KernelIdeal Cert.KernelIdeal.HostTerms Idealize.ShloMosaic Idealize.ShloMosaic.ValueIdx

/-- The column broadcast [250000] → [250000, 1] read at (r, 0) is the array at r. -/
private theorem col_apply (x : IVec S250000 32) (r : Fin 250000) :
    broadcastInDim S250000x1 ![0] Facts₀.bcast_S250000_S250000x1_0 x (ix2 r (0 : Fin 1)) = x (ix1 r) :=
  broadcastInDim_apply _ Facts₀.bcast_S250000_S250000x1_0 x (ix2 r (0 : Fin 1)) (ix1 r) (fun a => match a with
    | ⟨0, _⟩ => by show r.val = if (250000 : Nat) = 1 then 0 else r.val; rw [if_neg (by decide)])

/-- Column 0 of the pair array is the type id. -/
theorem idMask_id (x5 x8 x10 : IVec S250000 32) (r : Fin 250000) :
    idMask x5 x8 x10 (ix2 r (0 : Fin 2)) = typeIds x5 x8 (ix1 r) := by
  unfold idMask
  -- position 0 on the joined axis falls in the first piece, at the same coordinates
  refine (concatenate_pair_apply_left (t := S250000x2) (s₁ := S250000x1) (s₂ := S250000x1) (1 : Fin 2) _ _ _ (ix2 r (0 : Fin 2)) rfl (ix2 r (0 : Fin 1))
    (fun b => match b with | ⟨0, _⟩ => rfl | ⟨1, _⟩ => rfl)).trans ?_
  exact col_apply _ r

/-- Column 1 of the pair array is the mask entry. -/
theorem idMask_bit (x5 x8 x10 : IVec S250000 32) (r : Fin 250000) :
    idMask x5 x8 x10 (ix2 r (1 : Fin 2)) = x10 (ix1 r) := by
  unfold idMask
  -- position 1 on the joined axis is the second piece's position 0, the first piece having extent 1
  refine (concatenate_pair_apply_right (t := S250000x2) (s₁ := S250000x1) (s₂ := S250000x1) (1 : Fin 2) _ _ _ (ix2 r (1 : Fin 2)) rfl rfl (ix2 r (0 : Fin 1))
    (fun b => match b with | ⟨0, _⟩ => fun _ => rfl | ⟨1, _⟩ => fun hb => absurd rfl hb) rfl).trans ?_
  exact col_apply _ r

/-- For a word that is 0 or 1, the integer complement read as a number is one minus the word read as a number. -/
theorem compl_of_bit (w : BitVec 32) (h : w = 0#32 ∨ w = 1#32) :
    (((1#32 - w).toInt : ℝ) : EReal) = 1 - ((w.toInt : ℝ) : EReal) := by
  rcases h with rfl | rfl
  · have e1 : (1#32 - 0#32).toInt = 1 := by decide
    have e2 : (0#32).toInt = 0 := by decide
    rw [e1, e2, Int.cast_one, Int.cast_zero, EReal.coe_one, EReal.coe_zero, sub_zero]
  · have e1 : (1#32 - 1#32).toInt = 0 := by decide
    have e2 : (1#32).toInt = 1 := by decide
    -- 1 − 1 on the extended reals, through the reals
    rw [e1, e2, Int.cast_zero, Int.cast_one, EReal.coe_zero, ← EReal.coe_one, ← EReal.coe_sub, sub_self, EReal.coe_zero]

end Cert.KernelIdeal.IdMask

end
-- ==== Proof.PreDecode.lean ====
/-
  What the precondition says of the two integer inputs it constrains.

  The precondition is a conjunction, each conjunct an `all` over one input: five say a float input is finite, one
  that every relation-type id is a row of the relation-type table (0 ≤ id < 201), one that every mask entry is
  0 or 1. Read at one position, the last two give a range for that position's word.
-/
import proofs.«419473_j53790170415115_2_alg».proof.Proof.Gen.Pre_finite_inputs
import Idealize.ShloMosaic.Lib.ReduceAll
import Idealize.ShloMosaic.Lib.StableHlo.Predicate
import Idealize.ShloMosaic.Lib.ValueIdx

noncomputable section

namespace Cert.Pre_finite_inputs.Decode

open Cert.Pre_finite_inputs Idealize.ShloMosaic Idealize.ShloMosaic.ValueIdx

private instance : Subsingleton S_.Idx := ⟨fun a b => funext fun d => d.elim0⟩

/-- Every relation-type id is a row of the table. -/
theorem typeId_range (x0 : FVec Ideal S100000x288 .f32) (x1 : FVec Ideal S250000x256 .f32) (x2 : FVec Ideal S201x32 .f32)
    (x3 x4 : FVec Ideal S576x256 .f32) (x5 : IVec S250000 32) (x6 : IVec S50000 32) (x7 x8 x9 x10 : IVec S250000 32)
    (h : fn (F := Ideal) x0 x1 x2 x3 x4 x5 x6 x7 x8 x9 x10 = fun _ => 1#1) (j : Fin 250000) :
    0 ≤ (x5 (ix1 j)).toInt ∧ (x5 (ix1 j)).toInt < 201 := by
  have h0 := congrFun h ValueIdx.ix0
  dsimp only [fn, fn_part1, fn_part2] at h0
  -- the outer conjunction: (… ∧ all of the type ids' conjunct) ∧ all of the mask's conjunct
  obtain ⟨h1, -⟩ := IntOp.andi_eq_one.1 h0
  obtain ⟨-, h29⟩ := IntOp.andi_eq_one.1 h1
  -- the `all` read at position j, then its two compares
  obtain ⟨ha, hb⟩ := IntOp.andi_eq_one.1 (Host.reduce_andi_all _ _ _ _ _ h29 (ix1 j))
  have ha' : (0#32).toInt ≤ (x5 (ix1 j)).toInt := IntOp.cmpi_sge.1 ha
  have hb' : (x5 (ix1 j)).toInt < (201#32).toInt := IntOp.cmpi_slt.1 hb
  have z : (0#32).toInt = 0 := by decide
  have t : (201#32).toInt = 201 := by decide
  omega

/-- Every mask entry is 0 or 1. -/
theorem mask_bit (x0 : FVec Ideal S100000x288 .f32) (x1 : FVec Ideal S250000x256 .f32) (x2 : FVec Ideal S201x32 .f32)
    (x3 x4 : FVec Ideal S576x256 .f32) (x5 : IVec S250000 32) (x6 : IVec S50000 32) (x7 x8 x9 x10 : IVec S250000 32)
    (h : fn (F := Ideal) x0 x1 x2 x3 x4 x5 x6 x7 x8 x9 x10 = fun _ => 1#1) (i : Fin 250000) :
    x10 (ix1 i) = 0#32 ∨ x10 (ix1 i) = 1#32 := by
  have h0 := congrFun h ValueIdx.ix0
  dsimp only [fn, fn_part1, fn_part2] at h0
  -- the outermost conjunct is the mask's `all`
  obtain ⟨-, h36⟩ := IntOp.andi_eq_one.1 h0
  obtain ⟨ha, hb⟩ := IntOp.andi_eq_one.1 (Host.reduce_andi_all _ _ _ _ _ h36 (ix1 i))
  have ha' : (0#32).toInt ≤ (x10 (ix1 i)).toInt := IntOp.cmpi_sge.1 ha
  have hb' : (x10 (ix1 i)).toInt ≤ (1#32).toInt := IntOp.cmpi_sle.1 hb
  have z : (0#32).toInt = 0 := by decide
  have t : (1#32).toInt = 1 := by decide
  -- a word whose signed value is 0 or 1 is that word
  rcases (by omega : (x10 (ix1 i)).toInt = 0 ∨ (x10 (ix1 i)).toInt = 1) with e | e
  · exact Or.inl (BitVec.eq_of_toInt_eq (e.trans z.symm))
  · exact Or.inr (BitVec.eq_of_toInt_eq (e.trans t.symm))

end Cert.Pre_finite_inputs.Decode

end
-- ==== Proof.Join.lean ====
/-
  The pallas_call's result array is the reference's per-argument rows.

  Row r, column q of the result array is `rowK` of the row's gathered relation and entity rows, its relation-type
  row by the one-hot product, its mask entry and the entry's integer complement, and column q of the two weight
  matrices. The gathers are the reference's own; under the precondition the one-hot product is the reference's
  twice-gathered type row (every type id is a row of the table) and the integer complement is one minus the entry
  (the entry is 0 or 1); regrouping the six sums into the reference's two needs nothing more.
-/
import proofs.«419473_j53790170415115_2_alg».proof.Proof.Blocks
import proofs.«419473_j53790170415115_2_alg».proof.Proof.HostPre
import proofs.«419473_j53790170415115_2_alg».proof.Proof.Shared
import proofs.«419473_j53790170415115_2_alg».proof.Proof.RefRow
import proofs.«419473_j53790170415115_2_alg».proof.Proof.RtyRow
import proofs.«419473_j53790170415115_2_alg».proof.Proof.IdMask
import proofs.«419473_j53790170415115_2_alg».proof.Proof.PreDecode
import proofs.«419473_j53790170415115_2_alg».proof.Proof.ArgRow

noncomputable section

open scoped BigOperators

namespace Cert.Join

open Cert.ArgRow Cert.KernelIdeal.HostTerms Idealize.ShloMosaic Idealize.ShloMosaic.ValueIdx Idealize.SL.Sem

/-- Over any argument arrays with type ids in the table's range and mask entries 0 or 1: the kernel's row value is
    the reference's. -/
theorem row_eq (x0 : FVec Ideal Cert.KernelIdeal.S100000x288 .f32) (x1 : FVec Ideal Cert.KernelIdeal.S250000x256 .f32)
    (x2 : FVec Ideal Cert.KernelIdeal.S201x32 .f32) (x3 x4 : FVec Ideal Cert.KernelIdeal.S576x256 .f32)
    (x5 x8 x9 x10 : IVec Cert.KernelIdeal.S250000 32)
    (h5 : ∀ j : Fin 250000, 0 ≤ (x5 (ix1 j)).toInt ∧ (x5 (ix1 j)).toInt < 201)
    (h10 : ∀ i : Fin 250000, x10 (ix1 i) = 0#32 ∨ x10 (ix1 i) = 1#32)
    (r : Fin 250000) (q : Fin 256) :
    rowK (fun k => relRows (F := Ideal) x1 x8 (ix2 r k))
        (fun k => ∑ j : Fin 256, oneHotW (idMask x5 x8 x10 (ix2 r (0 : Fin 2))) j * paddedTable (F := Ideal) x2 (ix2 j k))
        (fun k => entRows (F := Ideal) x0 x9 (ix2 r k))
        (((idMask x5 x8 x10 (ix2 r (1 : Fin 2)) : BitVec 32).toInt : ℝ) : EReal)
        ((((1#32 - idMask x5 x8 x10 (ix2 r (1 : Fin 2)) : BitVec 32)).toInt : ℝ) : EReal)
        (fun k => narrowW (F := Ideal) x3 (ix2 k q)) (fun k => narrowW (F := Ideal) x4 (ix2 k q))
      = Cert.ReferenceIdeal.Read.val_main_v39 (F := Ideal) x0 x1 x2 x3 x4 x5 x8 x9 x10 (ix2 r q) := by
  rw [Cert.ReferenceIdeal.RefRow.y_apply, ← rowK_eq_rowR]
  refine Cert.KernelIdeal.Blocks.rowK_congr ?_ ?_ ?_ ?_ ?_ ?_ ?_
  · funext k; rw [Cert.Shared.relRows_eq]
  · funext k
    rw [Cert.KernelIdeal.IdMask.idMask_id]
    exact Cert.RtyRow.rty_eq x2 x5 x8 h5 r k
  · funext k; rw [Cert.Shared.entRows_eq]
  · rw [Cert.KernelIdeal.IdMask.idMask_bit]
  · rw [Cert.KernelIdeal.IdMask.idMask_bit]
    exact Cert.KernelIdeal.IdMask.compl_of_bit _ (h10 r)
  · funext k; rfl
  · funext k; rfl

end Cert.Join

end
-- ==== Proof.KernelRun.lean ====
/-
  The idealized kernel program's run, read: its result buffer is the host tail applied to the pallas_call's result
  array, and that array is, under the precondition, the reference's per-argument rows of the same arguments.
-/
import proofs.«419473_j53790170415115_2_alg».proof.Proof.Gen.KernelIdeal.Frame
import proofs.«419473_j53790170415115_2_alg».proof.Proof.Blocks
import proofs.«419473_j53790170415115_2_alg».proof.Proof.HostPre
import proofs.«419473_j53790170415115_2_alg».proof.Proof.Tail
import proofs.«419473_j53790170415115_2_alg».proof.Proof.Join
import proofs.«419473_j53790170415115_2_alg».proof.Proof.PreDecode

noncomputable section

namespace Cert.KernelIdeal.KernelRun

open Cert.KernelIdeal Cert.KernelIdeal.Gen Cert.KernelIdeal.HostTerms
open Idealize.ShloMosaic Idealize.ShloMosaic.TcCoe Idealize.ShloMosaic.ValueIdx Idealize.SL.Sem

variable (m : (ℓ : Loc nD τ sig) → Buf (Elt Ideal) ℓ) (ρ : Dev nD → PrngReg)

/-- Under the precondition the pallas_call's result array is the reference's per-argument rows. -/
theorem result_rows (c : Dev nD)
    (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1) :
    Blocks.resultArr m c
      = Cert.ReferenceIdeal.Read.val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) := by
  funext i
  obtain ⟨r, q, rfl⟩ : ∃ (r : Fin 250000) (q : Fin 256), i = ix2 r q := ⟨i 0, i 1, eq_ix2 i⟩
  show Blocks.rowOf m c r q = _
  unfold Blocks.rowOf Blocks.relA Blocks.entA Blocks.idmA Blocks.winA Blocks.woutA Blocks.padA
  rw [HostPre.V_rel m c, HostPre.V_ent m c, HostPre.V_idMask m c, HostPre.V_win m c, HostPre.V_wout m c, HostPre.V_pad m c]
  exact Cert.Join.row_eq _ _ _ _ _ _ _ _ _
    (Cert.Pre_finite_inputs.Decode.typeId_range _ _ _ _ _ _ _ _ _ _ _ hpre)
    (Cert.Pre_finite_inputs.Decode.mask_bit _ _ _ _ _ _ _ _ _ _ _ hpre) r q

/-- The run: the result buffer at the host tail of the arguments and the call's result array, the arguments unchanged. -/
theorem run : θ_run defs (onTc (τ := τ) (main (F := Ideal))) ⟨m, fun _ => 0, ρ⟩ (fun r => ∀ c : Dev nD,
      r.2.mem ((c.tc : Thread nD τ).loc main_v43)
        = tail (F := Ideal) (m ((c.tc : Thread nD τ).loc main_arg0)) (m ((c.tc : Thread nD τ).loc main_arg6)) (m ((c.tc : Thread nD τ).loc main_arg7)) (Blocks.resultArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      (((h c).2 main_v43 (Pipeline.mem_restRefs_of main_v43 (by decide) (by decide))).trans
        ((Tail.result_eq m c).trans (by rw [Blocks.final m c]))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩) (run_main m ρ)

end Cert.KernelIdeal.KernelRun

end
-- ==== Proof.lean ====
/-
  Per-argument role transform, summed per trigger: the kernel's program against its jnp reference, over the
  extended reals.

  For each of 250000 arguments both programs form a 576-entry row — the argument's relation row (256 entries), its
  relation's type row (32) and its entity row (288) — and map it through W_in if the argument's mask entry is 1 and
  through W_out if it is 0, written as (row · m) W_in + (row · (1 − m)) W_out; the 256-entry results are summed into
  their triggers' rows, and each trigger's own entity row is put in front.

  The reference does this with one 576-wide product per weight matrix. The kernel's program gathers the relation and
  entity rows on the host, and inside its one pallas_call (125 grid points of 2000 arguments) takes the type row from
  the type table, padded with zero rows to 256, by a one-hot product with the argument's type id, and adds six partial
  products, one per feature group and weight matrix; the complement 1 − m is computed on the integer mask entry.
  The sum over triggers and the triggers' rows are the same host operations in both programs.

  The two agree on the extended reals, where a sum may be split and regrouped freely and a zero factor annihilates,
  provided every type id is a row of the type table (else the reference's gather clamps the id into the table while
  the one-hot product gives zero) and every mask entry is 0 or 1 (else the integer complement may wrap): the two
  conjuncts added to the precondition. Finiteness of the float inputs is not used.

  Modules: ArgRow (the two groupings of one row's value, and the one-hot sum), Payload (the body's store at an
  index), Blocks (from the 125 blocks to the result array), HostTerms / HostPre / Tail (the host lines around the
  call), RefRow (the reference's value at an index), RtyRow with LibTake (the type row both ways), IdMask and
  PreDecode (the integer inputs), Shared (what the two programs compute alike), Join and KernelRun (the two sides
  meet), and here the five claims.
-/
import proofs.«419473_j53790170415115_2_alg».proof.Defs
import proofs.«419473_j53790170415115_2_alg».proof.Proof.Gen.Kernel
import proofs.«419473_j53790170415115_2_alg».proof.Proof.Gen.Kernel.Frame
import proofs.«419473_j53790170415115_2_alg».proof.Proof.Gen.KernelIdeal
import proofs.«419473_j53790170415115_2_alg».proof.Proof.Gen.KernelIdeal.Frame
import proofs.«419473_j53790170415115_2_alg».proof.Proof.Gen.ReferenceIdeal
import proofs.«419473_j53790170415115_2_alg».proof.Proof.Gen.ReferenceIdeal.Run
import proofs.«419473_j53790170415115_2_alg».proof.Proof.Gen.ReferenceIdeal.Read
import proofs.«419473_j53790170415115_2_alg».proof.Proof.Gen.Pre_finite_inputs
import proofs.«419473_j53790170415115_2_alg».proof.Proof.KernelRun
import proofs.«419473_j53790170415115_2_alg».proof.Proof.Shared
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the idealized reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end at the reference's composed value: the
    kernel's result buffer is the shared host tail of its pallas_call's result array, which under the precondition is
    the reference's per-argument rows. -/
theorem algebraic : Cert.algebraic_KernelIdeal_ReferenceIdeal := by
  intro m ρ m' ρ' hpre hagree
  refine ⟨fun c => Cert.ReferenceIdeal.Value.res_main_v50 m' c, ?_, Cert.ReferenceIdeal.Value.run (F := Ideal) m' ρ'⟩
  refine (θ_run Cert.KernelIdeal.defs _ _).mono (fun _ h c => ⟨(h c).1.trans ?_, (h c).2⟩)
    (Cert.KernelIdeal.KernelRun.run m ρ)
  show _ = Cert.ReferenceIdeal.Value.res_main_v50 m' c
  rw [Cert.ReferenceIdeal.Read.val_main_v50_eq m' c]
  obtain ⟨e0, e1, e2, e3, e4, e5, e6, e7, e8, e9, e10⟩ := hagree c
  rw [e0, e1, e2, e3, e4, e5, e6, e7, e8, e9, e10]
  rw [Cert.KernelIdeal.KernelRun.result_rows m c (hpre c)]
  exact Cert.Shared.tail_eq _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
